-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S1x1x4096x4096 : Shape := ⟨4, ![1, 1, 4096, 4096]⟩
abbrev S_ : Shape := ⟨0, ![]⟩

class Facts : Prop where
  bcast_S_S1x1x4096x4096 : S_.BroadcastsInDim S1x1x4096x4096 (![] : Fin 0 → Fin S1x1x4096x4096.rank)
  reducesTo_S1x1x4096x4096_S_d0_1_2_3 : S1x1x4096x4096.ReducesTo [0, 1, 2, 3] S_
  h_S_ : 0 < S_.numel

variable [Facts]

def fn {F : FTy → Type} [FloatOps F] (main_arg0 : IVec S1x1x4096x4096 32) (main_arg1 : IVec S1x1x4096x4096 32) : IVec S_ 1 :=
  let main_c : IVec S_ 32 := constantI S_ 32 0#32
  let main_v0 : IVec S1x1x4096x4096 32 := broadcastInDim S1x1x4096x4096 ![] bcast_S_S1x1x4096x4096 main_c
  let main_v1 : IVec S1x1x4096x4096 1 := cmpi .sge main_arg0 main_v0
  let main_c_0 : IVec S_ 32 := constantI S_ 32 256#32
  let main_v2 : IVec S1x1x4096x4096 32 := broadcastInDim S1x1x4096x4096 ![] bcast_S_S1x1x4096x4096 main_c_0
  let main_v3 : IVec S1x1x4096x4096 1 := cmpi .slt main_arg0 main_v2
  let main_v4 : IVec S1x1x4096x4096 1 := andi main_v1 main_v3
  let main_c_1 : IVec S_ 32 := constantI S_ 32 0#32
  let main_v5 : IVec S1x1x4096x4096 32 := broadcastInDim S1x1x4096x4096 ![] bcast_S_S1x1x4096x4096 main_c_1
  let main_v6 : IVec S1x1x4096x4096 1 := cmpi .sge main_arg1 main_v5
  let main_v7 : IVec S1x1x4096x4096 1 := andi main_v4 main_v6
  let main_c_2 : IVec S_ 32 := constantI S_ 32 256#32
  let main_v8 : IVec S1x1x4096x4096 32 := broadcastInDim S1x1x4096x4096 ![] bcast_S_S1x1x4096x4096 main_c_2
  let main_v9 : IVec S1x1x4096x4096 1 := cmpi .slt main_arg1 main_v8
  let main_v10 : IVec S1x1x4096x4096 1 := andi main_v7 main_v9
  let main_c_3 : IVec S_ 1 := constantI S_ 1 1#1
  let main_v11 : IVec S_ 1 := (fun x v => Host.reduce IntOp.andi x v reducesTo_S1x1x4096x4096_S_d0_1_2_3 h_S_) main_v10 main_c_3
  main_v11
-- ==== Kernel.lean ====
abbrev S1x1x4096x4096 : Shape := ⟨4, ![1, 1, 4096, 4096]⟩
abbrev S4096x4096 : Shape := ⟨2, ![4096, 4096]⟩
abbrev S2x2048x4096 : Shape := ⟨3, ![2, 2048, 4096]⟩
abbrev S2x256x256 : Shape := ⟨3, ![2, 256, 256]⟩
abbrev S1x8x1024 : Shape := ⟨3, ![1, 8, 1024]⟩
abbrev S1x256x256 : Shape := ⟨3, ![1, 256, 256]⟩
abbrev S256x256 : Shape := ⟨2, ![256, 256]⟩
abbrev S8x1024 : Shape := ⟨2, ![8, 1024]⟩
abbrev S1x256x1 : Shape := ⟨3, ![1, 256, 1]⟩
abbrev S8x1x1024 : Shape := ⟨3, ![8, 1, 1024]⟩
abbrev S8x256x1024 : Shape := ⟨3, ![8, 256, 1024]⟩
abbrev S8x256x256 : Shape := ⟨3, ![8, 256, 256]⟩
abbrev S_ : Shape := ⟨0, ![]⟩
abbrev S256 : Shape := ⟨1, ![256]⟩
abbrev S256x1 : Shape := ⟨2, ![256, 1]⟩
abbrev S1x256 : Shape := ⟨2, ![1, 256]⟩

abbrev nBuf : Space → Nat
  | .hbm => 62
  | .vmem => 6
  | .smem => 0
  | _ => 0

abbrev bufTy : (tb : Table) → Fin (tcTables nBuf tb) → BufTy
  | .hbm, ⟨0, _⟩ => ⟨S1x1x4096x4096, .i32⟩
  | .hbm, ⟨1, _⟩ => ⟨S1x1x4096x4096, .i32⟩
  | .hbm, ⟨2, _⟩ => ⟨S4096x4096, .i32⟩
  | .hbm, ⟨3, _⟩ => ⟨S4096x4096, .i32⟩
  | .hbm, ⟨4, _⟩ => ⟨S2x2048x4096, .i32⟩
  | .hbm, ⟨5, _⟩ => ⟨S2x2048x4096, .i32⟩
  | .hbm, ⟨6, _⟩ => ⟨S2x256x256, .f32⟩
  | .hbm, ⟨7, _⟩ => ⟨S_, .f32⟩
  | .hbm, ⟨8, _⟩ => ⟨S256x256, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S256x256, .f32⟩
  | .hbm, ⟨15, _⟩ => ⟨S256x256, .i1⟩
  | .hbm, ⟨16, _⟩ => ⟨S_, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256, .f32⟩
  | .hbm, ⟨23, _⟩ => ⟨S256, .i1⟩
  | .hbm, ⟨24, _⟩ => ⟨S_, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .i1⟩
  | .hbm, ⟨32, _⟩ => ⟨S_, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x1, .f32⟩
  | .hbm, ⟨41, _⟩ => ⟨S256x256, .f32⟩
  | .hbm, ⟨42, _⟩ => ⟨S256x256, .f32⟩
  | .hbm, ⟨43, _⟩ => ⟨S1x256, .f32⟩
  | .hbm, ⟨44, _⟩ => ⟨S256x256, .f32⟩
  | .hbm, ⟨45, _⟩ => ⟨S256x256, .f32⟩
  | .hbm, ⟨46, _⟩ => ⟨S_, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S_, .f32⟩
  | .hbm, ⟨52, _⟩ => ⟨S256x256, .f32⟩
  | .hbm, ⟨53, _⟩ => ⟨S256x256, .i1⟩
  | .hbm, ⟨54, _⟩ => ⟨S_, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S1x8x1024, .i32⟩
  | .local _ .vmem, ⟨1, _⟩ => ⟨S1x8x1024, .i32⟩
  | .local _ .vmem, ⟨2, _⟩ => ⟨S1x8x1024, .i32⟩
  | .local _ .vmem, ⟨3, _⟩ => ⟨S1x8x1024, .i32⟩
  | .local _ .vmem, ⟨4, _⟩ => ⟨S1x256x256, .f32⟩
  | .local _ .vmem, ⟨5, _⟩ => ⟨S1x256x256, .f32⟩
  | _, _ => ⟨S1x1x4096x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_cst_7 : Ref sig .tc := ⟨.hbm, 32, rfl⟩
abbrev main_call2_v0 : Ref sig .tc := ⟨.hbm, 33, rfl⟩
abbrev main_call2_v1 : Ref sig .tc := ⟨.hbm, 34, rfl⟩
abbrev main_v18 : Ref sig .tc := ⟨.hbm, 35, rfl⟩
abbrev main_v19 : Ref sig .tc := ⟨.hbm, 36, rfl⟩
abbrev main_cst_8 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_call3_v0 : Ref sig .tc := ⟨.hbm, 55, rfl⟩
abbrev main_call3_v1 : Ref sig .tc := ⟨.hbm, 56, rfl⟩
abbrev main_v34 : Ref sig .tc := ⟨.hbm, 57, rfl⟩
abbrev main_cst_12 : Ref sig .tc := ⟨.hbm, 58, rfl⟩
abbrev main_v35 : Ref sig .tc := ⟨.hbm, 59, rfl⟩
abbrev main_cst_13 : Ref sig .tc := ⟨.hbm, 60, rfl⟩
abbrev main_v36 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 256, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  shapeCasts_S1x1x4096x4096_S4096x4096 : S1x1x4096x4096.ShapeCasts S4096x4096
  shapeCasts_S4096x4096_S2x2048x4096 : S4096x4096.ShapeCasts S2x2048x4096
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  iota_S1x256x1_d1_w32 : S1x256x1.Iotas .tc 32 [1]
  shapeCasts_S8x1024_S8x1x1024 : S8x1024.ShapeCasts S8x1x1024
  broadcasts_S8x1x1024_S8x256x1024 : S8x1x1024.Broadcasts S8x256x1024
  broadcasts_S1x256x1_S8x256x1024 : S1x256x1.Broadcasts S8x256x1024
  natLt_1_32 : 1 < 32
  bitsLt_bf16_f32 : FTy.bits .bf16 < FTy.bits .f32
  reduces_S8x256x256_S256x256 : S8x256x256.Reduces [0] S256x256
  reducesTo_S2x256x256_S256x256_d0 : S2x256x256.ReducesTo [0] S256x256
  h_S_ : 0 < S_.numel
  reducesTo_S256x256_S256_d1 : S256x256.ReducesTo [1] S256
  reducesTo_S256x256_S256_d0 : S256x256.ReducesTo [0] S256
  bcast_S_S256x256 : S_.BroadcastsInDim S256x256 (![] : Fin 0 → Fin S256x256.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  reducesTo_S256x256_S_d0_1 : S256x256.ReducesTo [0, 1] S_
  dot_S8x256x1024_S8x256x1024_S8x256x256_2_2_1_1_0_0_wf : DotDims.WF S8x256x1024 S8x256x1024 S8x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x1024.size a ≤ S2x2048x4096.size a
  hwx0_0 : ∀ i : grid0.Coords, EltTy.bits .i32 = 32 ∨ (Rect.block (s := S2x2048x4096) S1x8x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1024.size a ≤ S2x2048x4096.size a
  hwx0_1 : ∀ i : grid0.Coords, EltTy.bits .i32 = 32 ∨ (Rect.block (s := S2x2048x4096) S1x8x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S2x256x256.size a
  hwx0_2 : ∀ i : grid0.Coords, EltTy.bits .f32 = 32 ∨ (Rect.block (s := S2x256x256) S1x256x256.size (cc0_transform_2 i) (hinb0_2 i)).WholeWords (EltTy.packing .f32)

variable [Facts₀]

def dot_S8x256x1024_S8x256x1024_S8x256x256_2_2_1_1_0_0 : DotDims S8x256x1024 S8x256x1024 S8x256x256 where
  lhsContracting := [2]
  rhsContracting := [2]
  lhsNonContracting := [1]
  rhsNonContracting := [1]
  lhsBatch := [0]
  rhsBatch := [0]
  wf := dot_S8x256x1024_S8x256x1024_S8x256x256_2_2_1_1_0_0_wf

abbrev win0_0 : Pipeline.Window sig grid0 :=
  Pipeline.Window.ofSpec (Memref.whole main_v2) S1x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1x4096x4096 : Shape := ⟨4, ![1, 1, 4096, 4096]⟩
abbrev S16777216 : Shape := ⟨1, ![16777216]⟩
abbrev S_ : Shape := ⟨0, ![]⟩
abbrev S65536 : Shape := ⟨1, ![65536]⟩
abbrev S16777216x1 : Shape := ⟨2, ![16777216, 1]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 75
  | .vmem => 0
  | .smem => 0
  | _ => 0

abbrev bufTy : (tb : Table) → Fin (tcTables nBuf tb) → BufTy
  | .hbm, ⟨0, _⟩ => ⟨S1x1x4096x4096, .i32⟩
  | .hbm, ⟨1, _⟩ => ⟨S1x1x4096x4096, .i32⟩
  | .hbm, ⟨2, _⟩ => ⟨S16777216, .i32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i32⟩
  | .hbm, ⟨7, _⟩ => ⟨S16777216, .i32⟩
  | .hbm, ⟨8, _⟩ => ⟨S_, .f32⟩
  | .hbm, ⟨9, _⟩ => ⟨S65536, .f32⟩
  | .hbm, ⟨10, _⟩ => ⟨S_, .i32⟩
  | .hbm, ⟨11, _⟩ => ⟨S16777216, .i32⟩
  | .hbm, ⟨12, _⟩ => ⟨S16777216, .i1⟩
  | .hbm, ⟨13, _⟩ => ⟨S_, .i32⟩
  | .hbm, ⟨14, _⟩ => ⟨S16777216, .i32⟩
  | .hbm, ⟨15, _⟩ => ⟨S16777216, .i32⟩
  | .hbm, ⟨16, _⟩ => ⟨S16777216, .i32⟩
  | .hbm, ⟨17, _⟩ => ⟨S16777216x1, .i32⟩
  | .hbm, ⟨18, _⟩ => ⟨S_, .f32⟩
  | .hbm, ⟨19, _⟩ => ⟨S16777216, .f32⟩
  | .hbm, ⟨20, _⟩ => ⟨S65536, .f32⟩
  | .hbm, ⟨21, _⟩ => ⟨S256x256, .f32⟩
  | .hbm, ⟨22, _⟩ => ⟨S_, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S_, .f32⟩
  | .hbm, ⟨27, _⟩ => ⟨S256x256, .f32⟩
  | .hbm, ⟨28, _⟩ => ⟨S256x256, .i1⟩
  | .hbm, ⟨29, _⟩ => ⟨S_, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256, .f32⟩
  | .hbm, ⟨36, _⟩ => ⟨S256, .i1⟩
  | .hbm, ⟨37, _⟩ => ⟨S_, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S_, .f32⟩
  | .hbm, ⟨43, _⟩ => ⟨S256, .f32⟩
  | .hbm, ⟨44, _⟩ => ⟨S256, .i1⟩
  | .hbm, ⟨45, _⟩ => ⟨S_, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S256x256, .f32⟩
  | .hbm, ⟨52, _⟩ => ⟨S256x256, .f32⟩
  | .hbm, ⟨53, _⟩ => ⟨S256x1, .f32⟩
  | .hbm, ⟨54, _⟩ => ⟨S256x256, .f32⟩
  | .hbm, ⟨55, _⟩ => ⟨S256x256, .f32⟩
  | .hbm, ⟨56, _⟩ => ⟨S1x256, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S_, .f32⟩
  | .hbm, ⟨61, _⟩ => ⟨S256x256, .f32⟩
  | .hbm, ⟨62, _⟩ => ⟨S256x256, .f32⟩
  | .hbm, ⟨63, _⟩ => ⟨S256x256, .f32⟩
  | .hbm, ⟨64, _⟩ => ⟨S_, .f32⟩
  | .hbm, ⟨65, _⟩ => ⟨S256x256, .f32⟩
  | .hbm, ⟨66, _⟩ => ⟨S256x256, .i1⟩
  | .hbm, ⟨67, _⟩ => ⟨S_, .f32⟩
  | .hbm, ⟨68, _⟩ => ⟨S_, .f32⟩
  | .hbm, ⟨69, _⟩ => ⟨S256x256, .f32⟩
  | .hbm, ⟨70, _⟩ => ⟨S256x256, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S1x1x4096x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_cst_10 : Ref sig .tc := ⟨.hbm, 45, rfl⟩
abbrev main_call2_v0 : Ref sig .tc := ⟨.hbm, 46, rfl⟩
abbrev main_call2_v1 : Ref sig .tc := ⟨.hbm, 47, rfl⟩
abbrev main_v27 : Ref sig .tc := ⟨.hbm, 48, rfl⟩
abbrev main_v28 : Ref sig .tc := ⟨.hbm, 49, rfl⟩
abbrev main_cst_11 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_v42 : Ref sig .tc := ⟨.hbm, 66, rfl⟩
abbrev main_cst_14 : Ref sig .tc := ⟨.hbm, 67, rfl⟩
abbrev main_call3_v0 : Ref sig .tc := ⟨.hbm, 68, rfl⟩
abbrev main_call3_v1 : Ref sig .tc := ⟨.hbm, 69, rfl⟩
abbrev main_v43 : Ref sig .tc := ⟨.hbm, 70, rfl⟩
abbrev main_cst_15 : Ref sig .tc := ⟨.hbm, 71, rfl⟩
abbrev main_v44 : Ref sig .tc := ⟨.hbm, 72, rfl⟩
abbrev main_cst_16 : Ref sig .tc := ⟨.hbm, 73, rfl⟩
abbrev main_v45 : Ref sig .tc := ⟨.hbm, 74, rfl⟩

abbrev nD : Nat := 1
abbrev τ : Topo := Topo.v7x

variable {F : FTy → Type} [FloatOps F]

class Facts₀ : Prop where
  shapeCasts_S1x1x4096x4096_S16777216 : S1x1x4096x4096.ShapeCasts S16777216
  bcast_S_S16777216 : S_.BroadcastsInDim S16777216 (![] : Fin 0 → Fin S16777216.rank)
  bcast_S_S65536 : S_.BroadcastsInDim S65536 (![] : Fin 0 → Fin S65536.rank)
  bcast_S16777216_S16777216x1_0 : S16777216.BroadcastsInDim S16777216x1 (![0] : Fin 1 → Fin S16777216x1.rank)
  shapeCasts_S65536_S256x256 : S65536.ShapeCasts S256x256
  reducesTo_S256x256_S256_d1 : S256x256.ReducesTo [1] S256
  h_S_ : 0 < S_.numel
  reducesTo_S256x256_S256_d0 : S256x256.ReducesTo [0] S256
  bcast_S_S256x256 : S_.BroadcastsInDim S256x256 (![] : Fin 0 → Fin S256x256.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  reducesTo_S256x256_S_d0_1 : S256x256.ReducesTo [0, 1] S_
  scatter_S65536_S16777216x1_S16777216_n_0_0_1_wf : ScatterDims.WF S65536 S16777216x1 S16777216 [] [0] [0] 1

variable [Facts₀]

def scatter_S65536_S16777216x1_S16777216_n_0_0_1 : ScatterDims S65536 S16777216x1 S16777216 where
  updateWindowDims := []
  insertedWindowDims := [0]
  scatterDimsToOperandDims := [0]
  indexVectorDim := 1
  wf := scatter_S65536_S16777216x1_S16777216_n_0_0_1_wf

class Facts : Prop extends Facts₀ where

variable [Facts]
-- ==== Proof.Spec.lean ====
/-
  The mathematics both programs share.

  Two label images `A`, `B` (int32, 1×1×4096×4096) have a JOINT HISTOGRAM over 256 × 256 bins: entry (i, j) counts the
  pixels p with A p = i and B p = j, written as a sum of products of indicators over the extended reals (`joint`).

  One program obtains the table by scatter-adding a one into a flat table of 65536 bins at the flat index
  A p · 256 + B p of each pixel, negative indices counted from the end, and reshaping the flat table to 256 × 256
  (`rjoint`: that term, operation by operation). The other obtains it from one-hot rows multiplied together block
  by block. From the table both then compute the same scalar (`mi`): the mutual information
  max (Σ_{ij, n_ij > 0} (n_ij / N) (log n_ij − log n_i· − log n_·j + log N), 0) with the row and column sums as
  marginals, every logarithm guarded by a select against an empty cell. `mi` is one fixed function of the table;
  nothing here opens it.

  When every label lies in [0, 256) (`InRange`) the flat index of a pixel determines its pair of labels, and
  `rjoint A B = joint A B`; the block sums equal `joint A B` for all labels.
-/
import Idealize.ShloMosaic.PureOps.Ideal
import Idealize.ShloMosaic.PureOps
import Idealize.ShloMosaic.Lib.ValueIdx

noncomputable section

namespace Cert.Hist

open Idealize.ShloMosaic

abbrev S1x1x4096x4096 : Shape := ⟨4, ![1, 1, 4096, 4096]⟩
abbrev S16777216 : Shape := ⟨1, ![16777216]⟩
abbrev S_ : Shape := ⟨0, ![]⟩
abbrev S65536 : Shape := ⟨1, ![65536]⟩
abbrev S16777216x1 : Shape := ⟨2, ![16777216, 1]⟩
abbrev S256x256 : Shape := ⟨2, ![256, 256]⟩
abbrev S256 : Shape := ⟨1, ![256]⟩
abbrev S256x1 : Shape := ⟨2, ![256, 1]⟩
abbrev S1x256 : Shape := ⟨2, ![1, 256]⟩

/-! ## Shape relations the operations take -/

theorem shapeCasts_S1x1x4096x4096_S16777216 : S1x1x4096x4096.ShapeCasts S16777216 := by decide
theorem bcast_S_S16777216 : S_.BroadcastsInDim S16777216 (![] : Fin 0 → Fin S16777216.rank) := by decide
theorem bcast_S_S65536 : S_.BroadcastsInDim S65536 (![] : Fin 0 → Fin S65536.rank) := by decide
theorem bcast_S16777216_S16777216x1_0 : S16777216.BroadcastsInDim S16777216x1 (![0] : Fin 1 → Fin S16777216x1.rank) := by decide
theorem shapeCasts_S65536_S256x256 : S65536.ShapeCasts S256x256 := by decide
theorem reducesTo_S256x256_S256_d1 : S256x256.ReducesTo [1] S256 := by decide
theorem h_S_ : 0 < S_.numel := by decide
theorem reducesTo_S256x256_S256_d0 : S256x256.ReducesTo [0] S256 := by decide
theorem bcast_S_S256x256 : S_.BroadcastsInDim S256x256 (![] : Fin 0 → Fin S256x256.rank) := by decide
theorem bcast_S_S256 : S_.BroadcastsInDim S256 (![] : Fin 0 → Fin S256.rank) := by decide
theorem bcast_S256_S256x1_0 : S256.BroadcastsInDim S256x1 (![0] : Fin 1 → Fin S256x1.rank) := by decide
theorem bcast_S256x1_S256x256_0_1 : S256x1.BroadcastsInDim S256x256 (![0, 1] : Fin 2 → Fin S256x256.rank) := by decide
theorem bcast_S256_S1x256_1 : S256.BroadcastsInDim S1x256 (![1] : Fin 1 → Fin S1x256.rank) := by decide
theorem bcast_S1x256_S256x256_0_1 : S1x256.BroadcastsInDim S256x256 (![0, 1] : Fin 2 → Fin S256x256.rank) := by decide
theorem reducesTo_S256x256_S_d0_1 : S256x256.ReducesTo [0, 1] S_ := by decide
theorem scatter_S65536_S16777216x1_S16777216_n_0_0_1_wf : ScatterDims.WF S65536 S16777216x1 S16777216 [] [0] [0] 1 := by decide

/-- The scatter's dimension numbers: each of the 16777216 updates is one scalar, placed at the one-component index its
    row of the index column holds. -/
def scatter_S65536_S16777216x1_S16777216_n_0_0_1 : ScatterDims S65536 S16777216x1 S16777216 where
  updateWindowDims := []
  insertedWindowDims := [0]
  scatterDimsToOperandDims := [0]
  indexVectorDim := 1
  wf := scatter_S65536_S16777216x1_S16777216_n_0_0_1_wf

/-! ## The joint histogram -/

/-- The indicator of "the label word `x` is the bin `i`", as an extended real. -/
def onehot (x : BitVec 32) (i : ℕ) : EReal := if x = BitVec.ofNat 32 i then 1 else 0

/-- Entry (i, j) of the joint histogram: the number of pixels labelled i in `A` and j in `B`. -/
def joint (A B : IVec S1x1x4096x4096 32) : FVec Ideal S256x256 .f32 :=
  fun q => ∑ p : S1x1x4096x4096.Idx, onehot (A p) (q 0).val * onehot (B p) (q 1).val

/-- Every label is one of the 256 bins. -/
def InRange (A : IVec S1x1x4096x4096 32) : Prop := ∀ p, 0 ≤ (A p).toInt ∧ (A p).toInt < 256

variable {F : FTy → Type} [FloatOps F]

/-- The table as the scatter-add computes it: ones added into 65536 zero bins at the flat indices
    `A p · 256 + B p` (a negative index counted from the end), the flat table read as 256 rows of 256. -/
def rjoint (A B : IVec S1x1x4096x4096 32) : FVec F S256x256 .f32 :=
  (shapeCast _ (Host.scatterAdd scatter_S65536_S16777216x1_S16777216_n_0_0_1 (broadcastInDim S65536 ![] bcast_S_S65536 (constant S_ .f32 0x00000000#32)) (broadcastInDim S16777216x1 ![0] bcast_S16777216_S16777216x1_0 (select (cmpi .slt (addi (muli (shapeCast _ A shapeCasts_S1x1x4096x4096_S16777216) (broadcastInDim S16777216 ![] bcast_S_S16777216 (constantI S_ 32 256#32))) (shapeCast _ B shapeCasts_S1x1x4096x4096_S16777216)) (broadcastInDim S16777216 ![] bcast_S_S16777216 (constantI S_ 32 0#32))) (addi (addi (muli (shapeCast _ A shapeCasts_S1x1x4096x4096_S16777216) (broadcastInDim S16777216 ![] bcast_S_S16777216 (constantI S_ 32 256#32))) (shapeCast _ B shapeCasts_S1x1x4096x4096_S16777216)) (broadcastInDim S16777216 ![] bcast_S_S16777216 (constantI S_ 32 65536#32))) (addi (muli (shapeCast _ A shapeCasts_S1x1x4096x4096_S16777216) (broadcastInDim S16777216 ![] bcast_S_S16777216 (constantI S_ 32 256#32))) (shapeCast _ B shapeCasts_S1x1x4096x4096_S16777216)))) (broadcastInDim S16777216 ![] bcast_S_S16777216 (constant S_ .f32 0x3F800000#32))) shapeCasts_S65536_S256x256)

/-- The mutual information of a 256 × 256 table of counts, as both programs compute it from the table. -/
def mi (J : FVec F S256x256 .f32) : FVec F S_ .f32 :=
  maximumf (Host.reduceAdd (select (cmpf (F := F) .ogt J (broadcastInDim S256x256 ![] bcast_S_S256x256 (constant S_ .f32 0x00000000#32))) (mulf (Host.divf J (broadcastInDim S256x256 ![] bcast_S_S256x256 (constant S_ .f32 0x4B800000#32))) (addf (subf (subf (Host.log (select (cmpf (F := F) .ogt J (broadcastInDim S256x256 ![] bcast_S_S256x256 (constant S_ .f32 0x00000000#32))) J (broadcastInDim S256x256 ![] bcast_S_S256x256 (id (constant S_ .f32 0x3F800000#32))))) (broadcastInDim S256x256 ![0, 1] bcast_S256x1_S256x256_0_1 (broadcastInDim S256x1 ![0] bcast_S256_S256x1_0 (Host.log (select (cmpf (F := F) .ogt (Host.reduceAdd J (constant S_ .f32 0x00000000#32) reducesTo_S256x256_S256_d1 h_S_) (broadcastInDim S256 ![] bcast_S_S256 (constant S_ .f32 0x00000000#32))) (Host.reduceAdd J (constant S_ .f32 0x00000000#32) reducesTo_S256x256_S256_d1 h_S_) (broadcastInDim S256 ![] bcast_S_S256 (id (constant S_ .f32 0x3F800000#32)))))))) (broadcastInDim S256x256 ![0, 1] bcast_S1x256_S256x256_0_1 (broadcastInDim S1x256 ![1] bcast_S256_S1x256_1 (Host.log (select (cmpf (F := F) .ogt (Host.reduceAdd J (constant S_ .f32 0x00000000#32) reducesTo_S256x256_S256_d0 h_S_) (broadcastInDim S256 ![] bcast_S_S256 (constant S_ .f32 0x00000000#32))) (Host.reduceAdd J (constant S_ .f32 0x00000000#32) reducesTo_S256x256_S256_d0 h_S_) (broadcastInDim S256 ![] bcast_S_S256 (id (constant S_ .f32 0x3F800000#32)))))))) (broadcastInDim S256x256 ![] bcast_S_S256x256 (Host.log (constant S_ .f32 0x4B800000#32))))) (broadcastInDim S256x256 ![] bcast_S_S256x256 (id (constant S_ .f32 0x00000000#32)))) (constant S_ .f32 0x00000000#32) reducesTo_S256x256_S_d0_1 h_S_) (constant S_ .f32 0x00000000#32)

end Cert.Hist

end
-- ==== Proof.RefValue.lean ====
/-
  The reference program's result, as the shared function of its table.

  The reference flattens the two images, scatter-adds a one per pixel into 65536 bins at the flat index, reshapes
  the bins to a 256 × 256 table (`rjoint`) and computes the mutual information of that table (`mi`): its run's
  composed term is literally `mi (rjoint A B)` of the two images as launched.
-/
import proofs.«425698_j21998822490468_1_alg».proof.Proof.RefRun
import proofs.«425698_j21998822490468_1_alg».proof.Proof.Spec

noncomputable section

open Idealize.ShloMosaic Idealize.ShloMosaic.TcCoe Idealize.SL.Sem

namespace Cert.ReferenceIdeal.HistValue

open Cert.ReferenceIdeal Cert.ReferenceIdeal.Gen Cert.ReferenceIdeal.ValueP

variable {F : FTy → Type} [FloatOps F]

set_option maxRecDepth 8192 in
set_option maxHeartbeats 4000000 in
/-- The run's result term is the mutual information of the scatter-added table. -/
theorem res_eq (m : (ℓ : Loc nD τ sig) → Buf (Elt F) ℓ) (c : Dev nD) :
    res_main_v45 (F := F) m c
      = Cert.Hist.mi (F := F) (Cert.Hist.rjoint (F := F) (m ((c.tc : Thread nD τ).loc main_arg0)) (m ((c.tc : Thread nD τ).loc main_arg1))) := by
  unfold res_main_v45
  rfl

end Cert.ReferenceIdeal.HistValue

end
-- ==== Proof.ScatterCount.lean ====
/-
  The scatter-add's table is the joint histogram.

  The scatter-add places a one at the flat bin  a · 256 + b  of every pixel, a and b the pixel's two label words. Read
  operation by operation: the scatter's result index for update u is the one-component start index held in row u of
  the index column, read as a signed integer, and an update lands in flat bin n exactly when that integer is n
  (`resultIdx?_iff`). For label words in [0, 256) the 32-bit product and sum do not wrap, the flat bin word is not
  negative, so the select keeps it (`wrapWord_toInt`), and  a · 256 + b = i · 256 + j  with all four below 256 holds
  exactly when a = i and b = j: the indicator of the flat bin is the product of the two label indicators
  (`indicator_eq`). The table entry (i, j) is flat bin i · 256 + j (`bin_val`), and the sum over the 16777216 flat
  pixel positions is the sum over the pixels of the image along the reshape's bijection of indices (`count_eq`).
-/
import proofs.«425698_j21998822490468_1_alg».proof.Proof.Spec
import Idealize.ShloMosaic.Lib.IdealHost
import Idealize.ShloMosaic.Lib.Pipeline.Value

open scoped BigOperators

namespace Cert.Hist

open Idealize.ShloMosaic Idealize.ShloMosaic.ValueIdx

local notation "dS" => scatter_S65536_S16777216x1_S16777216_n_0_0_1

namespace ScatterCount

/-! ## Where an update lands -/

/-- Update `u` reads its start index at row `u` of the index column, component 0. -/
theorem siIdx_eq (u : S16777216.Idx) (c : Fin (dS).scatterDimsToOperandDims.length) :
    (dS).siIdx u c = ix2 (u 0) (0 : Fin 1) := by
  funext b
  match b with
  | ⟨0, _⟩ => rfl
  | ⟨1, _⟩ =>
    apply Fin.ext
    show c.val = 0
    have : c.val < 1 := c.isLt
    omega

/-- The window's start on the table's one axis is the index word of row `u`, read signed. -/
theorem start_eq (u : S16777216.Idx) (col : IVec S16777216x1 32) (a : Fin S65536.rank) :
    (dS).start u col a = (col (ix2 (u 0) (0 : Fin 1))).toInt := by
  obtain rfl : a = (0 : Fin 1) := Subsingleton.elim _ _
  unfold ScatterDims.start
  rw [dif_pos (by decide), siIdx_eq]
  rfl

/-- The table's one axis is an inserted window axis: the window coordinate on it is 0. -/
theorem window_eq (u : S16777216.Idx) (a : Fin S65536.rank) : (dS).window u a = 0 := by
  obtain rfl : a = (0 : Fin 1) := Subsingleton.elim _ _
  unfold ScatterDims.window
  rw [dif_neg (by decide)]

/-- Update `u` lands in flat bin `n` exactly when the index word of row `u`, read signed, is `n`
    (an index outside [0, 65536) lands nowhere). -/
theorem resultIdx?_iff (u : S16777216.Idx) (col : IVec S16777216x1 32) (n : S65536.Idx) :
    (dS).resultIdx? u col = some n ↔ (col (ix2 (u 0) (0 : Fin 1))).toInt = ((n 0).val : Int) := by
  unfold ScatterDims.resultIdx?
  have hn : (n 0).val < 65536 := (n 0).isLt
  constructor
  · intro h
    split at h
    · rename_i hh
      have h1 := Option.some.inj h
      have h2 := congrArg (fun f => (f 0).val) h1
      simp only [start_eq, window_eq] at h2 hh
      have := hh 0
      omega
    · exact absurd h (by simp)
  · intro h
    have hh : ∀ a, 0 ≤ (dS).start u col a + (dS).window u a ∧
        (dS).start u col a + (dS).window u a < S65536.size a := by
      intro a
      match a with
      | ⟨0, _⟩ =>
        rw [start_eq, window_eq, h]
        show _ ∧ _ < ((65536 : Nat) : Int)
        omega
    rw [dif_pos hh]
    congr 1
    funext a
    match a with
    | ⟨0, _⟩ =>
      apply Fin.ext
      show ((dS).start u col _ + (dS).window u _).toNat = (n 0).val
      rw [start_eq, window_eq, h]
      omega

/-- Row `u` of the index column is entry `u` of the vector it was broadcast from. -/
theorem col_apply (w : IVec S16777216 32) (u : S16777216.Idx) :
    broadcastInDim S16777216x1 ![0] bcast_S16777216_S16777216x1_0 w (ix2 (u 0) (0 : Fin 1)) = w u := by
  refine broadcastInDim_apply _ _ _ _ u ?_
  intro a
  obtain rfl : a = (0 : Fin 1) := Subsingleton.elim _ _
  rw [if_neg (by decide)]
  rfl

/-- Table entry (i, j) is flat bin i · 256 + j. -/
theorem bin_val (q : S256x256.Idx) :
    ((Shape.reshapeEquiv shapeCasts_S65536_S256x256 q) 0).val = (q 0).val * 256 + (q 1).val := by
  have h := Shape.rowMajor_reshapeEquiv shapeCasts_S65536_S256x256 q
  rw [Shape.rowMajor_val_one, Shape.rowMajor_val_two] at h
  exact h

/-! ## The word arithmetic of one pixel -/

/-- The flat bin word of a pair of label words: a · 256 + b, plus 65536 when that is negative. -/
def wrapWord (a b : BitVec 32) : BitVec 32 :=
  Scalar.select (IntOp.cmpi .slt (IntOp.addi (IntOp.muli a 256#32) b) 0#32)
    (IntOp.addi (IntOp.addi (IntOp.muli a 256#32) b) 65536#32) (IntOp.addi (IntOp.muli a 256#32) b)

/-- A word whose signed value is in [0, 256) has that unsigned value too. -/
theorem toNat_of_inRange (a : BitVec 32) (h0 : 0 ≤ a.toInt) (h1 : a.toInt < 256) :
    a.toNat < 256 ∧ a.toInt = (a.toNat : Int) := by
  have hc := BitVec.toInt_eq_toNat_cond a
  have hl := a.isLt
  split at hc <;> omega

/-- For labels in [0, 256) neither the product nor the sum wraps, and the flat bin is not negative:
    the select keeps a · 256 + b. -/
theorem wrapWord_toInt (a b : BitVec 32) (ha0 : 0 ≤ a.toInt) (ha1 : a.toInt < 256) (hb0 : 0 ≤ b.toInt)
    (hb1 : b.toInt < 256) : (wrapWord a b).toInt = a.toInt * 256 + b.toInt := by
  obtain ⟨ha, ha'⟩ := toNat_of_inRange a ha0 ha1
  obtain ⟨hb, hb'⟩ := toNat_of_inRange b hb0 hb1
  have hn : (a * 256#32 + b).toNat = a.toNat * 256 + b.toNat := by
    rw [BitVec.toNat_add, BitVec.toNat_mul]
    show (a.toNat * 256 % 2 ^ 32 + b.toNat) % 2 ^ 32 = _
    omega
  have hi : (a * 256#32 + b).toInt = a.toInt * 256 + b.toInt := by
    rw [BitVec.toInt_eq_toNat_cond, hn, ha', hb']
    split <;> omega
  have hs : IntOp.cmpi .slt (IntOp.addi (IntOp.muli a 256#32) b) 0#32 = 0#1 := by
    show BitVec.ofBool ((a * 256#32 + b).slt 0#32) = 0#1
    have : (a * 256#32 + b).slt 0#32 = false := by
      rw [BitVec.slt, hi]
      simp
      omega
    rw [this]; rfl
  unfold wrapWord
  rw [hs, select_zero]
  exact hi

/-- A word is the bin `i` < 256 exactly when its unsigned value is `i`. -/
theorem eq_ofNat_iff (a : BitVec 32) (i : ℕ) (hi : i < 256) : a = BitVec.ofNat 32 i ↔ a.toNat = i := by
  rw [← BitVec.toNat_inj, BitVec.toNat_ofNat]
  have : i % 2 ^ 32 = i := Nat.mod_eq_of_lt (by omega)
  rw [this]

/-- The indicator of "the pixel's flat bin is i · 256 + j" is the product of the indicators of "a is i" and "b is j":
    base-256 digits below 256 are unique. -/
theorem indicator_eq (a b : BitVec 32) (ha0 : 0 ≤ a.toInt) (ha1 : a.toInt < 256) (hb0 : 0 ≤ b.toInt)
    (hb1 : b.toInt < 256) (i j : ℕ) (hi : i < 256) (hj : j < 256) :
    (if (wrapWord a b).toInt = ((i * 256 + j : ℕ) : Int) then (1 : EReal) else 0) = onehot a i * onehot b j := by
  obtain ⟨ha, ha'⟩ := toNat_of_inRange a ha0 ha1
  obtain ⟨hb, hb'⟩ := toNat_of_inRange b hb0 hb1
  rw [wrapWord_toInt a b ha0 ha1 hb0 hb1, ha', hb']
  unfold onehot
  simp only [eq_ofNat_iff a i hi, eq_ofNat_iff b j hj]
  by_cases h1 : a.toNat = i
  · by_cases h2 : b.toNat = j
    · rw [if_pos h1, if_pos h2, if_pos (by omega), one_mul]
    · rw [if_pos h1, if_neg h2, if_neg (by omega), mul_zero]
  · rw [if_neg h1, zero_mul, if_neg (by omega)]

/-! ## The count -/

/-- The updates `Y` added over the flat pixel positions whose index word `W`, read signed, is the flat bin of
    table entry `q`. -/
noncomputable def cnt (W : IVec S16777216 32) (Y : FVec Ideal S16777216 .f32) (q : S256x256.Idx) : EReal :=
  ∑ u : S16777216.Idx, if (W u).toInt = (((q 0).val * 256 + (q 1).val : ℕ) : Int) then Y u else 0

/-- The scatter-add into `x` along the column of `W`, read at table entry `q` through the reshape: the operand's
    flat bin plus the count. -/
theorem scatter_read (x : FVec Ideal S65536 .f32) (W : IVec S16777216 32) (Y : FVec Ideal S16777216 .f32)
    (q : S256x256.Idx) :
    shapeCast S256x256 (Host.scatterAdd dS x
        (broadcastInDim S16777216x1 ![0] bcast_S16777216_S16777216x1_0 W) Y) shapeCasts_S65536_S256x256 q =
      x (Shape.reshapeEquiv shapeCasts_S65536_S256x256 q) + cnt W Y q := by
  show Ideal.hostScatterAdd dS x (broadcastInDim S16777216x1 ![0] bcast_S16777216_S16777216x1_0 W) Y
      (Shape.reshapeEquiv shapeCasts_S65536_S256x256 q) = _
  unfold Ideal.hostScatterAdd cnt
  rw [Finset.sum_filter]
  refine congrArg (x (Shape.reshapeEquiv shapeCasts_S65536_S256x256 q) + ·) (Fintype.sum_congr _ _ fun u => ?_)
  refine if_congr ?_ rfl rfl
  rw [resultIdx?_iff, col_apply, bin_val]

/-- Over labels in [0, 256), with `W` the flat bin word of each flat pixel position and every update a one, the
    count from a zero operand is the joint histogram's entry: the flat positions are the pixels, along the reshape. -/
theorem count_eq (A B : IVec S1x1x4096x4096 32) (hA : InRange A) (hB : InRange B) (x0 : EReal) (hx : x0 = 0)
    (W : IVec S16777216 32) (Y : FVec Ideal S16777216 .f32)
    (hW : ∀ u, W u = wrapWord (A (Shape.reshapeEquiv shapeCasts_S1x1x4096x4096_S16777216 u))
      (B (Shape.reshapeEquiv shapeCasts_S1x1x4096x4096_S16777216 u)))
    (hY : ∀ u, Y u = 1) (q : S256x256.Idx) : x0 + cnt W Y q = joint A B q := by
  rw [hx, zero_add]
  unfold cnt joint
  refine Fintype.sum_equiv (Shape.reshapeEquiv shapeCasts_S1x1x4096x4096_S16777216) _ _ fun u => ?_
  rw [hW u, hY u]
  exact indicator_eq _ _ (hA _).1 (hA _).2 (hB _).1 (hB _).2 _ _ (q 0).isLt (q 1).isLt

end ScatterCount

open ScatterCount in
/-- Over labels in [0, 256) the scatter-add's table is the joint histogram. -/
theorem rjoint_eq (A B : IVec S1x1x4096x4096 32) (hA : InRange A) (hB : InRange B) :
    rjoint (F := Ideal) A B = joint A B := by
  funext q
  unfold rjoint
  rw [scatter_read]
  refine count_eq A B hA hB _ ?_ _ _ ?_ ?_ q
  · exact Ideal.ofBits_zero_f32
  · intro u; rfl
  · intro u; exact Ideal.ofBits_one_f32

end Cert.Hist
-- ==== Proof.PreRange.lean ====
/-
  The range of the labels, read out of the precondition.

  The precondition is one reduction by "and", from the bit 1 and over all four axes, of the pixelwise bit
  (0 ≤ A p) ∧ (A p < 256) ∧ (0 ≤ B p) ∧ (B p < 256), the labels read as signed 32-bit words. A reduction by "and"
  that comes out 1 met only 1s, so the bit is 1 at every pixel; a conjunction of bits is 1 exactly when each is;
  and each comparison bit is 1 exactly when the signed inequality holds between the word and the constant
  (a constant broadcast to every pixel reads, at a pixel, as the constant). Hence both images are in range.
-/
import proofs.«425698_j21998822490468_1_alg».proof.Pre_any_inputs
import proofs.«425698_j21998822490468_1_alg».proof.Proof.Gen.Pre_any_inputs
import proofs.«425698_j21998822490468_1_alg».proof.Proof.Spec
import Idealize.ShloMosaic.Lib.ReduceAll
import Idealize.ShloMosaic.Lib.StableHlo.Predicate

namespace Cert.Hist

open Idealize.ShloMosaic

/-- The shape of rank 0 has one index: the empty tuple of coordinates. -/
instance subsingleton_scalar_idx : Subsingleton S_.Idx := ⟨fun a b => funext fun d => d.elim0⟩

/-- The signed readings of the two constants the labels are compared with. -/
theorem toInt_zero32 : (0#32 : BitVec 32).toInt = 0 := by decide
theorem toInt_256 : (256#32 : BitVec 32).toInt = 256 := by decide

/-- If the precondition's bit is 1 then every label of both images lies in [0, 256). -/
theorem range_of_pre {F : FTy → Type} [FloatOps F] (A B : IVec S1x1x4096x4096 32)
    (h : Cert.Pre_any_inputs.fn (F := F) A B = fun _ => 1#1) : InRange A ∧ InRange B := by
  -- the claim at the one index of the result: the reduction by "and" is 1
  have h0 := congrFun h ValueIdx.ix0
  dsimp only [Cert.Pre_any_inputs.fn] at h0
  -- so the reduced bit is 1 at every pixel p
  have hp := fun p => Host.reduce_andi_all _ _ _ _ _ h0 p
  -- at a pixel the bit is the conjunction of the four comparison bits, each against a constant
  have hq : ∀ p, (0 ≤ (A p).toInt ∧ (A p).toInt < 256) ∧ (0 ≤ (B p).toInt ∧ (B p).toInt < 256) := by
    intro p
    have h1 := hp p
    dsimp only [andi, cmpi, broadcastInDim, constantI] at h1
    obtain ⟨h2, hB1⟩ := IntOp.andi_eq_one.1 h1
    obtain ⟨h3, hB0⟩ := IntOp.andi_eq_one.1 h2
    obtain ⟨hA0, hA1⟩ := IntOp.andi_eq_one.1 h3
    have a0 := IntOp.cmpi_sge.1 hA0
    have a1 := IntOp.cmpi_slt.1 hA1
    have b0 := IntOp.cmpi_sge.1 hB0
    have b1 := IntOp.cmpi_slt.1 hB1
    rw [toInt_zero32] at a0 b0
    rw [toInt_256] at a1 b1
    exact ⟨⟨a0, a1⟩, ⟨b0, b1⟩⟩
  exact ⟨fun p => (hq p).1, fun p => (hq p).2⟩

end Cert.Hist
-- ==== Proof.KernelTail.lean ====
/-
  The lines after the kernel region, as ONE function of the region's output array.

  After the region the program sums the two per-chunk tables (a reduce over the leading axis of the 2 × 256 × 256
  output array) and computes the mutual information of the sum. That computation is the fixed function `mi` of the
  summed table; it is carried as a whole and never opened.
-/
import proofs.«425698_j21998822490468_1_alg».proof.Proof.Gen.KernelIdeal.Frame
import proofs.«425698_j21998822490468_1_alg».proof.Proof.Spec
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.HistValue

open Cert.KernelIdeal Cert.KernelIdeal.Gen

variable {F : FTy → Type} [FloatOps F]

variable (m : (ℓ : Loc nD τ sig) → Buf (Elt F) ℓ) (ρ : Dev nD → PrngReg)

/-- The region's output array (two 256 × 256 tables, one per chunk of rows) as the lines after the region find it. -/
abbrev outArr (c : Dev nD) : FVec F S2x256x256 .f32 := (dats m 0 c).arrAt 2 cfg0.N

set_option maxRecDepth 8192 in
set_option maxHeartbeats 4000000 in
/-- The program's result is the mutual information of the sum of the two chunk tables. -/
theorem tail_eq (c : Dev nD) :
    Pipeline.afterTail₀ cfgs (dats m) 0 (V0 m) [hostOps1, hostOps1_1, hostOps1_2, hostOps1_3, hostOps1_4, hostOps1_5, hostOps1_6, hostOps1_7, hostOps1_8] c main_v36
      = Cert.Hist.mi (F := F) (Host.reduceAdd (outArr m c) (constant S_ .f32 0x00000000#32) reducesTo_S2x256x256_S256x256_d0 h_S_) := by
  have hw : Pipeline.withArrays (cfgs 0).spec c (V0 m c) (fun w => (dats m 0 c).arrAt w (cfgs 0).N) (Proc.devRef .tc main_v4)
      = (dats m 0 c).arrAt 2 cfg0.N := Pipeline.withArrays_arr spec0 launch0.win.arr_inj c _ _ 2
  unfold Pipeline.afterTail₀
  simp only [hostOps1, hostOps1_1, hostOps1_2, hostOps1_3, hostOps1_4, hostOps1_5, hostOps1_6, hostOps1_7, hostOps1_8, List.flatten_cons, List.flatten_nil, List.append_nil, List.cons_append, List.nil_append]
  after_results_simp
  simp only [StableHlo.TRef.ofBuf, StableHlo.TRef.toBuf, cast_eq]
  rw [hw]
  rfl

end Cert.KernelIdeal.HistValue

end
-- ==== Proof.Sums.lean ====
/-
  Regrouping of finite sums over the extended reals.

  Addition of extended reals is commutative and associative with no side condition, so every regrouping of a
  finite sum is free. Three regroupings are recorded here:

  * a running sum that restarts at every multiple of 1024 holds, at the last index of a chunk of 1024, the sum
    of that chunk (`runSum_chunk_end`);
  * a row a < 4096 is uniquely c * 2048 + s * 8 + r (c < 2, s < 256, r < 8), a column b < 4096 is uniquely
    q * 1024 + k (q < 4, k < 1024), and a point n < 1024 is uniquely s * 4 + q; summing over chunks c, points n,
    sub-rows r and lanes k therefore visits every (row, column) pair exactly once (`sum_points`);
  * an index of shape 1 × 1 × 4096 × 4096 is its last two coordinates, so a sum over the index set is the double
    sum over rows and columns (`sum_img`).
-/
import proofs.«425698_j21998822490468_1_alg».proof.Proof.Spec
import Mathlib.Algebra.BigOperators.Fin
import Mathlib.Data.Fintype.BigOperators
import Mathlib.Logic.Equiv.Fin.Basic
import Mathlib.Data.EReal.Basic
import Idealize.ShloMosaic.Lib.ValueIdx

noncomputable section

open scoped BigOperators

namespace Cert.Hist

open Idealize.ShloMosaic

/-! ## The restarting running sum -/

/-- A running sum that restarts at every multiple of 1024. -/
def runSum (P : ℕ → EReal) : ℕ → EReal
  | 0 => 0 + P 0
  | n + 1 => if (n + 1) % 1024 = 0 then 0 + P (n + 1) else runSum P n + P (n + 1)

/-- At a multiple of 1024 the running sum is the term at that index alone. -/
theorem runSum_restart (P : ℕ → EReal) (n : ℕ) (h : n % 1024 = 0) : runSum P n = P n := by
  cases n with
  | zero => simp [runSum]
  | succ n => simp [runSum, h]

/-- Away from the multiples of 1024 the running sum adds the next term. -/
theorem runSum_step (P : ℕ → EReal) (n : ℕ) (h : (n + 1) % 1024 ≠ 0) :
    runSum P (n + 1) = runSum P n + P (n + 1) := by
  simp [runSum, h]

/-- Inside the chunk number c the running sum at offset m is the sum of the chunk's terms up to offset m. -/
theorem runSum_prefix (P : ℕ → EReal) (c : ℕ) (m : ℕ) (hm : m < 1024) :
    runSum P (c * 1024 + m) = ∑ n ∈ Finset.range (m + 1), P (c * 1024 + n) := by
  induction m with
  | zero =>
    rw [runSum_restart P (c * 1024 + 0) (by omega), Finset.sum_range_one]
  | succ m ih =>
    have hne : (c * 1024 + m + 1) % 1024 ≠ 0 := by omega
    rw [Finset.sum_range_succ, ← ih (by omega), ← Nat.add_assoc, runSum_step P (c * 1024 + m) hne]

theorem runSum_chunk_end (P : ℕ → EReal) (c : ℕ) :
    runSum P (c * 1024 + 1023) = ∑ n : Fin 1024, P (c * 1024 + n.val) := by
  rw [runSum_prefix P c 1023 (by omega), Fin.sum_univ_eq_sum_range (fun n => P (c * 1024 + n)) 1024]

/-! ## Splitting a range of B · T naturals into B blocks of T -/

/-- A number below B · T is uniquely c · T + j with c < B and j < T. -/
theorem sum_fin_mul {M : Type*} [AddCommMonoid M] (B T : ℕ) (F : ℕ → M) :
    ∑ x : Fin (B * T), F x.val = ∑ c : Fin B, ∑ j : Fin T, F (c.val * T + j.val) := by
  rw [← finProdFinEquiv.sum_comp, Fintype.sum_prod_type]
  refine Finset.sum_congr rfl fun c _ => Finset.sum_congr rfl fun j _ => ?_
  rw [finProdFinEquiv_apply_val, Nat.add_comm, Nat.mul_comm]

/-- A row below 4096 is c · 2048 + s · 8 + r with c < 2, s < 256, r < 8. -/
theorem sum_rows {M : Type*} [AddCommMonoid M] (G : ℕ → M) :
    ∑ a : Fin 4096, G a.val
      = ∑ c : Fin 2, ∑ s : Fin 256, ∑ r : Fin 8, G (c.val * 2048 + s.val * 8 + r.val) := by
  have h1 : ∑ a : Fin 4096, G a.val = ∑ c : Fin 2, ∑ j : Fin 2048, G (c.val * 2048 + j.val) :=
    sum_fin_mul 2 2048 G
  rw [h1]
  refine Finset.sum_congr rfl fun c _ => ?_
  have h2 : ∑ j : Fin 2048, G (c.val * 2048 + j.val)
      = ∑ s : Fin 256, ∑ r : Fin 8, G (c.val * 2048 + (s.val * 8 + r.val)) :=
    sum_fin_mul 256 8 (fun j => G (c.val * 2048 + j))
  rw [h2]
  simp only [Nat.add_assoc]

/-- A column below 4096 is q · 1024 + k with q < 4, k < 1024. -/
theorem sum_cols {M : Type*} [AddCommMonoid M] (G : ℕ → M) :
    ∑ b : Fin 4096, G b.val = ∑ q : Fin 4, ∑ k : Fin 1024, G (q.val * 1024 + k.val) :=
  sum_fin_mul 4 1024 G

/-- A point below 1024 is s · 4 + q with s < 256, q < 4. -/
theorem sum_pts {M : Type*} [AddCommMonoid M] (G : ℕ → M) :
    ∑ n : Fin 1024, G n.val = ∑ s : Fin 256, ∑ q : Fin 4, G (s.val * 4 + q.val) :=
  sum_fin_mul 256 4 G

theorem sum_points (f : ℕ → ℕ → EReal) :
    ∑ c : Fin 2, ∑ n : Fin 1024, ∑ r : Fin 8, ∑ k : Fin 1024,
        f ((c.val * 1024 + n.val) / 1024 * 2048 + (c.val * 1024 + n.val) / 4 % 256 * 8 + r.val)
          ((c.val * 1024 + n.val) % 4 * 1024 + k.val)
      = ∑ a : Fin 4096, ∑ b : Fin 4096, f a.val b.val := by
  rw [sum_rows (fun a => ∑ b : Fin 4096, f a b.val)]
  refine Finset.sum_congr rfl fun c _ => ?_
  -- the point n is s · 4 + q
  rw [sum_pts (fun n => ∑ r : Fin 8, ∑ k : Fin 1024,
        f ((c.val * 1024 + n) / 1024 * 2048 + (c.val * 1024 + n) / 4 % 256 * 8 + r.val)
          ((c.val * 1024 + n) % 4 * 1024 + k.val))]
  refine Finset.sum_congr rfl fun s _ => ?_
  -- the column quarter q and the sub-row r trade places
  rw [Finset.sum_comm]
  refine Finset.sum_congr rfl fun r _ => ?_
  -- the column is q · 1024 + k
  rw [sum_cols (fun b => f (c.val * 2048 + s.val * 8 + r.val) b)]
  refine Finset.sum_congr rfl fun q _ => Finset.sum_congr rfl fun k _ => ?_
  have hc := c.isLt
  have hs := s.isLt
  have hq := q.isLt
  have e1 : (c.val * 1024 + (s.val * 4 + q.val)) / 1024 = c.val := by omega
  have e2 : (c.val * 1024 + (s.val * 4 + q.val)) / 4 % 256 = s.val := by omega
  have e3 : (c.val * 1024 + (s.val * 4 + q.val)) % 4 = q.val := by omega
  rw [e1, e2, e3]

/-! ## The index set of a 1 × 1 × 4096 × 4096 image -/

/-- An index of shape 1 × 1 × 4096 × 4096 is its row and its column: the two leading coordinates range over a
    one-element set. -/
def imgEquiv : S1x1x4096x4096.Idx ≃ Fin 4096 × Fin 4096 where
  toFun p := (p 2, p 3)
  invFun ab := ValueIdx.ix4 (0 : Fin 1) (0 : Fin 1) ab.1 ab.2
  left_inv p := by
    funext e
    match e with
    | ⟨0, _⟩ => exact Subsingleton.elim (α := Fin 1) _ _
    | ⟨1, _⟩ => exact Subsingleton.elim (α := Fin 1) _ _
    | ⟨2, _⟩ => rfl
    | ⟨3, _⟩ => rfl
  right_inv _ := rfl

theorem sum_img (g : S1x1x4096x4096.Idx → EReal) :
    ∑ p : S1x1x4096x4096.Idx, g p
      = ∑ a : Fin 4096, ∑ b : Fin 4096, g (Idealize.ShloMosaic.ValueIdx.ix4 (0 : Fin 1) (0 : Fin 1) a b) := by
  rw [← Equiv.sum_comp imgEquiv.symm g, Fintype.sum_prod_type]
  rfl

end Cert.Hist

end
-- ==== Proof.PayloadAt.lean ====
/-
  The two blocks the histogram kernel stores, read at an element.

  The accumulating block. Two [1,8,1024] blocks of labels are compared with the 256 bin numbers, which gives two
  [8,256,1024] arrays of indicators (row r, bin i, position k: "the label at (r, k) is the bin i"). Their product,
  contracted over the position k and batched over the row r, is an [8,256,256] array of counts; summed over r and
  added to the accumulator it is, at (i, j), the accumulator there plus the number of positions of the block labelled
  i in the first block and j in the second, written as a double sum of products of indicators (`pay2_apply`).

  The initializing block is zero everywhere (`pay1_apply`).

  Each operation is read at an index by its own lemma: the reshapes by equal row-major positions, the broadcasts by
  the coordinates they keep, the iota by its coordinate, the comparison word by cases on the equality, the product
  by the sum over its one contraction coordinate, the reduction by the sum over the dropped axis.
-/
import proofs.«425698_j21998822490468_1_alg».proof.Proof.Gen.KernelIdeal.Skeleton
import proofs.«425698_j21998822490468_1_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.Hist

open Idealize.ShloMosaic Cert.KernelIdeal Cert.KernelIdeal.Gen Idealize.ShloMosaic.ValueIdx
open scoped BigOperators

/-! The per-operation readings live in a namespace of their own; the two results are stated in `Cert.Hist`. -/
namespace PayloadAt

/-! ### The labels, the bins and the indicator -/

/-- The word of a decided equality, widened and read as a signed integer, is the indicator. -/
theorem sitofp_cmpi_eq (x : BitVec 32) (i : ℕ) :
    FloatOps.sitofp (F := Ideal) .f32 ((IntOp.cmpi .eq x (BitVec.ofNat 32 i)).setWidth 32) = onehot x i := by
  unfold onehot
  by_cases h : x = BitVec.ofNat 32 i
  · rw [if_pos h]
    have : IntOp.cmpi .eq x (BitVec.ofNat 32 i) = 1#1 := StableHlo.Predicate.cmpi_eq_iff.mpr h
    rw [this]
    show (((BitVec.setWidth 32 1#1).toInt : ℝ) : EReal) = 1
    norm_num
  · rw [if_neg h]
    have : IntOp.cmpi .eq x (BitVec.ofNat 32 i) = 0#1 :=
      eq_zero_of_ne_one (fun h1 => h (StableHlo.Predicate.cmpi_eq_iff.mp h1))
    rw [this]
    show (((BitVec.setWidth 32 0#1).toInt : ℝ) : EReal) = 0
    norm_num

/-- A label block [1,8,1024] viewed [8,1024], then [8,1,1024], and repeated along the bin axis to [8,256,1024],
    reads at (r, i, k) the label at (0, r, k). -/
theorem labels_apply (x : Vec Ideal Cert.KernelIdeal.S1x8x1024 .i32) (r : Fin 8) (i : Fin 256) (k : Fin 1024) :
    broadcastTo S8x256x1024 (shapeCast S8x1x1024 (shapeCast S8x1024 x shapeCasts_S1x8x1024_S8x1024) shapeCasts_S8x1024_S8x1x1024)
        broadcasts_S8x1x1024_S8x256x1024 (ix3 r i k)
      = x (ix3 (0 : Fin 1) r k) := by
  refine (broadcastTo_apply _ _ (ix3 r i k) (ix3 r (0 : Fin 1) k) (fun a => match a with | ⟨0, _⟩ => rfl | ⟨1, _⟩ => rfl | ⟨2, _⟩ => rfl)).trans ?_
  refine (shapeCast_apply _ _ (ix3 r (0 : Fin 1) k) (ix2 r k) (by rw [Shape.rowMajor_val_two, Shape.rowMajor_val_three]; show r.val * 1024 + k.val = (r.val * 1 + 0) * 1024 + k.val; omega)).trans ?_
  exact shapeCast_apply _ _ (ix2 r k) (ix3 (0 : Fin 1) r k) (by rw [Shape.rowMajor_val_two, Shape.rowMajor_val_three]; show (0 * 8 + r.val) * 1024 + k.val = r.val * 1024 + k.val; omega)

/-- The bin numbers, an iota along axis 1 of [1,256,1], repeated to [8,256,1024], read at (r, i, k) the word of i. -/
theorem bins_apply (r : Fin 8) (i : Fin 256) (k : Fin 1024) :
    broadcastTo S8x256x1024 (iota .tc S1x256x1 32 [1] iota_S1x256x1_d1_w32) broadcasts_S1x256x1_S8x256x1024 (ix3 r i k)
      = BitVec.ofNat 32 i.val := by
  refine (broadcastTo_apply _ _ (ix3 r i k) (ix3 (0 : Fin 1) i (0 : Fin 1)) (fun a => match a with | ⟨0, _⟩ => rfl | ⟨1, _⟩ => rfl | ⟨2, _⟩ => rfl)).trans ?_
  exact iota_single_apply _ _ _ _ _ _

/-! ### The product's operand indices, axis by axis

The dimension numbers: batch axis 0 of both operands, free axis 1 of each, contraction over axis 2 of both; the result
is [batch, left free, right free]. -/

theorem dot_lhs_0 (J : S8x256x256.Idx) (k : dot_S8x256x1024_S8x256x1024_S8x256x256_2_2_1_1_0_0.contr.Idx) :
    ((dot_S8x256x1024_S8x256x1024_S8x256x256_2_2_1_1_0_0.lhsIdx J k 0 : Fin _) : ℕ) = (J 0 : ℕ) := by
  simp [DotDims.lhsIdx, dot_S8x256x1024_S8x256x1024_S8x256x256_2_2_1_1_0_0]; rfl
theorem dot_lhs_1 (J : S8x256x256.Idx) (k : dot_S8x256x1024_S8x256x1024_S8x256x256_2_2_1_1_0_0.contr.Idx) :
    ((dot_S8x256x1024_S8x256x1024_S8x256x256_2_2_1_1_0_0.lhsIdx J k 1 : Fin _) : ℕ) = (J 1 : ℕ) := by
  simp [DotDims.lhsIdx, dot_S8x256x1024_S8x256x1024_S8x256x256_2_2_1_1_0_0]; rfl
theorem dot_lhs_2 (J : S8x256x256.Idx) (k : dot_S8x256x1024_S8x256x1024_S8x256x256_2_2_1_1_0_0.contr.Idx) :
    ((dot_S8x256x1024_S8x256x1024_S8x256x256_2_2_1_1_0_0.lhsIdx J k 2 : Fin _) : ℕ) = (k ⟨0, by decide⟩ : ℕ) :=
  DotDims.lhsIdx_val_of_single _ rfl J k
theorem dot_rhs_0 (J : S8x256x256.Idx) (k : dot_S8x256x1024_S8x256x1024_S8x256x256_2_2_1_1_0_0.contr.Idx) :
    ((dot_S8x256x1024_S8x256x1024_S8x256x256_2_2_1_1_0_0.rhsIdx J k 0 : Fin _) : ℕ) = (J 0 : ℕ) := by
  simp [DotDims.rhsIdx, dot_S8x256x1024_S8x256x1024_S8x256x256_2_2_1_1_0_0]; rfl
theorem dot_rhs_1 (J : S8x256x256.Idx) (k : dot_S8x256x1024_S8x256x1024_S8x256x256_2_2_1_1_0_0.contr.Idx) :
    ((dot_S8x256x1024_S8x256x1024_S8x256x256_2_2_1_1_0_0.rhsIdx J k 1 : Fin _) : ℕ) = (J 2 : ℕ) := by
  simp [DotDims.rhsIdx, dot_S8x256x1024_S8x256x1024_S8x256x256_2_2_1_1_0_0]; rfl
theorem dot_rhs_2 (J : S8x256x256.Idx) (k : dot_S8x256x1024_S8x256x1024_S8x256x256_2_2_1_1_0_0.contr.Idx) :
    ((dot_S8x256x1024_S8x256x1024_S8x256x256_2_2_1_1_0_0.rhsIdx J k 2 : Fin _) : ℕ) = (k ⟨0, by decide⟩ : ℕ) :=
  DotDims.rhsIdx_val_of_single _ rfl J k

/-- The contraction index of the product is its one coordinate, a number below 1024. -/
abbrev contrK : dot_S8x256x1024_S8x256x1024_S8x256x256_2_2_1_1_0_0.contr.Idx ≃ Fin 1024 :=
  contrEquiv1 dot_S8x256x1024_S8x256x1024_S8x256x256_2_2_1_1_0_0 1024 rfl rfl

/-- At result index (r, i, j) and contraction coordinate k the left operand is read at (r, i, k) … -/
theorem dot_lhsIdx_eq (r : Fin 8) (i j : Fin 256) (k : Fin 1024) :
    dot_S8x256x1024_S8x256x1024_S8x256x256_2_2_1_1_0_0.lhsIdx (ix3 r i j) (contrK.symm k) = ix3 r i k := by
  funext a
  apply Fin.ext
  match a with
  | ⟨0, _⟩ => exact dot_lhs_0 _ _
  | ⟨1, _⟩ => exact dot_lhs_1 _ _
  | ⟨2, _⟩ => exact (dot_lhs_2 _ _).trans (contrEquiv1_symm_val _ _ _ _ k)

/-- … and the right operand at (r, j, k). -/
theorem dot_rhsIdx_eq (r : Fin 8) (i j : Fin 256) (k : Fin 1024) :
    dot_S8x256x1024_S8x256x1024_S8x256x256_2_2_1_1_0_0.rhsIdx (ix3 r i j) (contrK.symm k) = ix3 r j k := by
  funext a
  apply Fin.ext
  match a with
  | ⟨0, _⟩ => exact dot_rhs_0 _ _
  | ⟨1, _⟩ => exact dot_rhs_1 _ _
  | ⟨2, _⟩ => exact (dot_rhs_2 _ _).trans (contrEquiv1_symm_val _ _ _ _ k)

/-- The one-hot rows of a label block: at (r, i, k), whether the label at (0, r, k) is the bin i — the comparison's
    bit widened to a word, read as a signed integer and kept through the narrowing, which at the ideal values changes
    nothing. -/
def hot (x : Vec Ideal Cert.KernelIdeal.S1x8x1024 .i32) : FVec Ideal S8x256x1024 .bf16 :=
  truncf .bf16 (sitofp .f32 (extui 32 (cmpi .eq
    (broadcastTo S8x256x1024 (shapeCast S8x1x1024 (shapeCast S8x1024 x shapeCasts_S1x8x1024_S8x1024) shapeCasts_S8x1024_S8x1x1024)
      broadcasts_S8x1x1024_S8x256x1024)
    (broadcastTo S8x256x1024 (iota .tc S1x256x1 32 [1] iota_S1x256x1_d1_w32) broadcasts_S1x256x1_S8x256x1024)) natLt_1_32)) bitsLt_bf16_f32

theorem hot_apply (x : Vec Ideal Cert.KernelIdeal.S1x8x1024 .i32) (r : Fin 8) (i : Fin 256) (k : Fin 1024) :
    hot x (ix3 r i k) = onehot (x (ix3 (0 : Fin 1) r k)) i.val := by
  show FloatOps.sitofp (F := Ideal) .f32 ((IntOp.cmpi .eq (broadcastTo _ _ _ (ix3 r i k)) (broadcastTo _ _ _ (ix3 r i k))).setWidth 32) = _
  rw [labels_apply, bins_apply]
  exact sitofp_cmpi_eq _ _

/-- The block product into the zero accumulator, at (r, i, j): the number of positions k of row r labelled i in the
    first block and j in the second. -/
theorem prod_apply (x0 x1 : Vec Ideal Cert.KernelIdeal.S1x8x1024 .i32) (r : Fin 8) (i j : Fin 256) :
    FloatOps.matmul dot_S8x256x1024_S8x256x1024_S8x256x256_2_2_1_1_0_0 none (hot x0) (hot x1) (constant (F := Ideal) S8x256x256 .f32 0x00000000#32) (ix3 r i j)
      = ∑ k : Fin 1024, onehot (x0 (ix3 (0 : Fin 1) r k)) i.val * onehot (x1 (ix3 (0 : Fin 1) r k)) j.val := by
  refine (Ideal.matmul_constant_zero_apply dot_S8x256x1024_S8x256x1024_S8x256x256_2_2_1_1_0_0 none (hot x0) (hot x1) (ix3 r i j)).trans ?_
  rw [← Equiv.sum_comp contrK.symm]
  refine Finset.sum_congr rfl fun k _ => ?_
  rw [dot_lhsIdx_eq, dot_rhsIdx_eq, hot_apply, hot_apply]

/-- The sum over axis 0 of an [8,256,256] block, at (i, j), is the sum over r of the block at (r, i, j). -/
theorem rows_apply (v : FVec Ideal S8x256x256 .f32) (i j : Fin 256) :
    multiReduction (F := Ideal) .add [0] Cert.KernelIdeal.S256x256 v 0x00000000#32 reduces_S8x256x256_S256x256 (.inl rfl) rfl (ix2 i j)
      = ∑ r : Fin 8, v (ix3 r i j) := by
  refine (Ideal.multiReduction_add_single _ _ _ _ _ _).trans ?_
  refine Finset.sum_congr rfl fun r _ => congrArg v ?_
  funext a
  match a with
  | ⟨0, _⟩ => rfl
  | ⟨1, _⟩ => rfl
  | ⟨2, _⟩ => rfl

end PayloadAt

open PayloadAt

/-- The accumulating payload at (0, i, j): the accumulator there plus, over the 8 rows r and the 1024 positions k of
    the two label blocks, the product of the indicators "the first block's label at (r, k) is i" and "the second
    block's label at (r, k) is j" — the joint count of the pair (i, j) over the block. -/
theorem pay2_apply (x0 x1 : Vec Ideal Cert.KernelIdeal.S1x8x1024 .i32) (acc : Vec Ideal Cert.KernelIdeal.S1x256x256 .f32) (i j : Fin 256) :
    k0_pay2 (F := Ideal) x0 x1 acc (ix3 (0 : Fin 1) i j)
      = acc (ix3 (0 : Fin 1) i j)
        + ∑ r : Fin 8, ∑ k : Fin 1024, onehot (x0 (ix3 (0 : Fin 1) r k)) i.val * onehot (x1 (ix3 (0 : Fin 1) r k)) j.val := by
  have e : k0_pay2 (F := Ideal) x0 x1 acc
      = shapeCast Cert.KernelIdeal.S1x256x256
          (addf (shapeCast Cert.KernelIdeal.S256x256 acc shapeCasts_S1x256x256_S256x256)
            (multiReduction (F := Ideal) .add [0] Cert.KernelIdeal.S256x256
              (FloatOps.matmul dot_S8x256x1024_S8x256x1024_S8x256x256_2_2_1_1_0_0 none (hot x0) (hot x1) (constant (F := Ideal) S8x256x256 .f32 0x00000000#32))
              0x00000000#32 reduces_S8x256x256_S256x256 (.inl rfl) rfl))
          shapeCasts_S256x256_S1x256x256 := rfl
  rw [e]
  -- the [256,256] sum stored as a [1,256,256] block: (0, i, j) reads (i, j)
  refine (shapeCast_apply _ _ (ix3 (0 : Fin 1) i j) (ix2 i j)
    (by rw [Shape.rowMajor_val_two, Shape.rowMajor_val_three]
        show i.val * 256 + j.val = (0 * 256 + i.val) * 256 + j.val; omega)).trans ?_
  rw [addf_apply]
  refine congrArg₂ (· + ·) ?_ ?_
  · -- the accumulator block viewed [256,256]: (i, j) reads (0, i, j)
    exact shapeCast_apply _ _ (ix2 i j) (ix3 (0 : Fin 1) i j)
      (by rw [Shape.rowMajor_val_two, Shape.rowMajor_val_three]
          show (0 * 256 + i.val) * 256 + j.val = i.val * 256 + j.val; omega)
  · rw [rows_apply]
    exact Finset.sum_congr rfl fun r _ => prod_apply x0 x1 r i j

/-- The initializing payload is the zero block. -/
theorem pay1_apply (q : Cert.KernelIdeal.S1x256x256.Idx) : k0_pay1 (F := Ideal) q = 0 :=
  Ideal.ofBits_zero_f32

end Cert.Hist

end
-- ==== Proof.KernelCases.lean ====
/-
  What one run of the kernel body leaves in the output block, in each of its two control cases, as a value.

  The body (one grid point) optionally resets the 256 × 256 output block to zero, then stores into it
  `acc + P`, where `acc` is what the block held and `P` the point's partial table (`k0_pay2`). At a point that
  does not reset, the block held what the point before left (`xo`); at a resetting point the block just holds
  the zero block (`k0_pay1`) that the reset stored.
-/
import proofs.«425698_j21998822490468_1_alg».proof.Proof.Gen.KernelIdeal.Frame

import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.HistValue

open Cert.KernelIdeal Cert.KernelIdeal.Gen

variable {F : FTy → Type} [FloatOps F]

/-- The all-zero offset of a block that is its whole staging buffer. -/
theorem hz3 : (![0, 0, 0] : Fin 3 → Nat) = fun _ => 0 := funext fun a => by fin_cases a <;> rfl

/-- A point that does not reset: the block ends at `xo + P` of the two label blocks, `xo` what it held. -/
theorem out_B (c : Dev nD) (i : grid0.Coords) (a3 : Memref sig .tc .vmem S1x8x1024 .i32) (h3 : a3.IsWhole)
    (a4 : Memref sig .tc .vmem S1x8x1024 .i32) (h4 : a4.IsWhole) (a5 : Memref sig .tc .vmem S1x256x256 .f32) (h5 : a5.IsWhole)
    (hc : ¬cond0_0 i) (x0 x1 : Vec F S1x8x1024 .i32) (xo : Vec F S1x256x256 .f32) :
    out0_B_2 c i a3 h3 a4 h4 a5 h5 hc x0 x1 xo = k0_pay2 x0 x1 xo := by
  unfold out0_B_2
  rw [View.read_writes_eq_canon _ _ _ (cover0_B_2 c i a3 h3 a4 h4 a5 h5 hc x0 x1 xo)]
  unfold kernelRun0_B
  dsimp only
  sl_unfold_words
  rw [View.canon_unit_zero hz3]
  simp only [View.readAt_eq_ld, h3.read_unread, h4.read_unread, h5.read_unread, View.ld_unit_zero (S := S1x8x1024) hz3,
    View.ld_unit_zero (S := S1x256x256) hz3]

/-- A resetting point: the zero block is stored first and read back, so the block ends at `0 + P`. -/
theorem out_A (c : Dev nD) (i : grid0.Coords) (a3 : Memref sig .tc .vmem S1x8x1024 .i32) (h3 : a3.IsWhole)
    (a4 : Memref sig .tc .vmem S1x8x1024 .i32) (h4 : a4.IsWhole) (a5 : Memref sig .tc .vmem S1x256x256 .f32) (h5 : a5.IsWhole)
    (hc : cond0_0 i) (x0 x1 : Vec F S1x8x1024 .i32) :
    out0_A_2 c i a3 h3 a4 h4 a5 h5 hc x0 x1 = k0_pay2 x0 x1 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x256x256) hz3, View.readCov_unit_zero (S := S1x256x256) _ hz3]
  simp only [View.readAt_eq_ld, h3.read_unread, h4.read_unread, View.ld_unit_zero (S := S1x8x1024) hz3]

end Cert.KernelIdeal.HistValue

end
-- ==== Proof.KernelIndex.lean ====
/-
  The block index of each input window at a grid point, decided once over the 2048 points: point t is in chunk
  t / 1024, at row step t / 4 mod 256 and column step t mod 4.
-/
import proofs.«425698_j21998822490468_1_alg».proof.Proof.Gen.KernelIdeal.Frame

-- one closed form at a time: each is decided over every grid point
set_option Elab.async false

noncomputable section

open Idealize.ShloMosaic Idealize.ShloMosaic.TcCoe Idealize.SL.Sem

namespace Cert.KernelIdeal.HistValue

open Cert.KernelIdeal Cert.KernelIdeal.Gen

/-- The block index of each input window at point `t`: chunk, row step, column step. -/
theorem idx_facts0 : ∀ t : Fin cfg0.N, win0_0.index t 0 = t.val / 1024 ∧ win0_0.index t 1 = t.val / 4 % 256 ∧ win0_0.index t 2 = t.val % 4 :=
  (by decide +kernel : ∀ t : Fin grid0.N, win0_0.index t 0 = t.val / 1024 ∧ win0_0.index t 1 = t.val / 4 % 256 ∧ win0_0.index t 2 = t.val % 4)
theorem idx_facts1 : ∀ t : Fin cfg0.N, win0_1.index t 0 = t.val / 1024 ∧ win0_1.index t 1 = t.val / 4 % 256 ∧ win0_1.index t 2 = t.val % 4 :=
  (by decide +kernel : ∀ t : Fin grid0.N, win0_1.index t 0 = t.val / 1024 ∧ win0_1.index t 1 = t.val / 4 % 256 ∧ win0_1.index t 2 = t.val % 4)

end Cert.KernelIdeal.HistValue

end
-- ==== Proof.KernelBlocks.lean ====
/-
  Where a block of the kernel's input windows sits in the image.

  The program views each 4096 × 4096 image as 2 chunks of 2048 rows and walks a grid of 2 × 256 × 4 points; point
  t = (c, s, q) (c = t / 1024, s = t / 4 mod 256, q = t mod 4) reads the 8 × 1024 block of rows
  c·2048 + s·8 … + 7 and columns q·1024 … + 1023. So entry (r, k) of the block at point t is the image at row
  `rowOf t r` and column `colOf t k`. The two reshapes before the region (1×1×4096×4096 → 4096×4096 → 2×2048×4096)
  keep every element at its row-major position.
-/
import proofs.«425698_j21998822490468_1_alg».proof.Proof.Gen.KernelIdeal.Frame
import proofs.«425698_j21998822490468_1_alg».proof.Proof.Spec
import proofs.«425698_j21998822490468_1_alg».proof.Proof.KernelIndex
import Idealize.ShloMosaic.Lib.StableHlo.Run
import Idealize.ShloMosaic.Lib.ValueIdx
import Idealize.ShloMosaic.Lib.Pipeline.Value
import Idealize.ShloMosaic.Lib.Tactic

-- one lemma at a time: each block-read lemma unfolds a window's block view
set_option Elab.async false

noncomputable section

open Idealize.ShloMosaic Idealize.ShloMosaic.TcCoe Idealize.SL.Sem
open Idealize.ShloMosaic.Pipeline (Dat)

namespace Cert.KernelIdeal.HistValue

open Cert.KernelIdeal Cert.KernelIdeal.Gen Idealize.ShloMosaic.ValueIdx

variable {F : FTy → Type} [FloatOps F]

variable (m : (ℓ : Loc nD τ sig) → Buf (Elt F) ℓ)

/-- The image row that row `r` of the block at point `t` holds. -/
def rowOf (t r : ℕ) : ℕ := t / 1024 * 2048 + t / 4 % 256 * 8 + r
/-- The image column that column `k` of the block at point `t` holds. -/
def colOf (t k : ℕ) : ℕ := t % 4 * 1024 + k

/-- The row of the image from the block's chunk, row step and row, in the form the block's embedding gives it. -/
theorem row_arith (t y0 y1 : ℕ) (h0 : y0 < 1) :
    (t / 1024 * 1 + 1 * y0) * 2048 + (t / 4 % 256 * 8 + 1 * y1) = rowOf t y1 := by
  unfold rowOf
  omega
/-- The column likewise. -/
theorem col_arith (t y2 : ℕ) : t % 4 * 1024 + 1 * y2 = colOf t y2 := by
  unfold colOf
  omega
theorem row_lt (t y1 : ℕ) (ht : t < 2048) (h1 : y1 < 8) : rowOf t y1 < 4096 := by
  unfold rowOf
  omega
theorem col_lt (t y2 : ℕ) (h2 : y2 < 1024) : colOf t y2 < 4096 := by
  unfold colOf
  omega

/-- An image read at a row and a column given as natural numbers (the zero word outside the image). -/
def imgAt (A : IVec S1x1x4096x4096 32) (a b : ℕ) : BitVec 32 :=
  if h : a < 4096 ∧ b < 4096 then A (ix4 (0 : Fin 1) (0 : Fin 1) ⟨a, h.1⟩ ⟨b, h.2⟩) else 0#32

/-- The two reshapes read at an index: element (c, r, k) of the 2 × 2048 × 4096 view is the image at row c·2048 + r, column k. -/
theorem reshape2_apply (A : IVec S1x1x4096x4096 32) (e : S2x2048x4096.Idx) (a b : ℕ) (ha : a < 4096) (hb : b < 4096)
    (h0 : (e 0).val * 2048 + (e 1).val = a) (h2 : (e 2).val = b) :
    shapeCast S2x2048x4096 (shapeCast S4096x4096 A shapeCasts_S1x1x4096x4096_S4096x4096) shapeCasts_S4096x4096_S2x2048x4096 e = imgAt A a b := by
  rw [shapeCast_apply _ _ e (ix2 (⟨a, ha⟩ : Fin 4096) (⟨b, hb⟩ : Fin 4096)) (by
    rw [Shape.rowMajor_val_two, Shape.rowMajor_val_three]
    show a * 4096 + b = ((e 0).val * 2048 + (e 1).val) * 4096 + (e 2).val
    omega)]
  rw [shapeCast_apply _ _ (ix2 (⟨a, ha⟩ : Fin 4096) (⟨b, hb⟩ : Fin 4096)) (ix4 (0 : Fin 1) (0 : Fin 1) (⟨a, ha⟩ : Fin 4096) (⟨b, hb⟩ : Fin 4096)) (by
    rw [Shape.rowMajor_val_two, Shape.rowMajor_val_four]
    show ((0 * 1 + 0) * 4096 + a) * 4096 + b = a * 4096 + b
    omega)]
  unfold imgAt
  rw [dif_pos ⟨ha, hb⟩]

/-- The first image as the region finds it: the launch contents reshaped twice. -/
theorem v2_eq (c : Dev nD) : (V m c main_v2 : S2x2048x4096.Idx → BitVec 32)
    = shapeCast S2x2048x4096 (shapeCast S4096x4096 (m ((c.tc : Thread nD τ).loc main_arg0)) shapeCasts_S1x1x4096x4096_S4096x4096) shapeCasts_S4096x4096_S2x2048x4096 := by
  show StableHlo.after hostOps0 (fun b => m (c, b)) (Proc.devRef .tc main_v2) = _
  after_results
  rfl
/-- The second image likewise. -/
theorem v3_eq (c : Dev nD) : (V m c main_v3 : S2x2048x4096.Idx → BitVec 32)
    = shapeCast S2x2048x4096 (shapeCast S4096x4096 (m ((c.tc : Thread nD τ).loc main_arg1)) shapeCasts_S1x1x4096x4096_S4096x4096) shapeCasts_S4096x4096_S2x2048x4096 := by
  show StableHlo.after hostOps0 (fun b => m (c, b)) (Proc.devRef .tc main_v3) = _
  after_results
  rfl

/-- The block of the first image at point `t`. -/
abbrev ablk (c : Dev nD) (t : Fin cfg0.N) : Vec F S1x8x1024 .i32 := iblk m c 0 t
/-- The block of the second image at point `t`. -/
abbrev bblk (c : Dev nD) (t : Fin cfg0.N) : Vec F S1x8x1024 .i32 := iblk m c 1 t

/-- Entry y of the first image's block at point `t` is the image at row `rowOf t (y 1)`, column `colOf t (y 2)`. -/
theorem ablk_at (c : Dev nD) (t : Fin cfg0.N) (y : S1x8x1024.Idx) :
    ablk m c t y = imgAt (m ((c.tc : Thread nD τ).loc main_arg0)) (rowOf t.val (y 1).val) (colOf t.val (y 2).val) := by
  have hN : t.val < 2048 := lt_of_lt_of_eq t.isLt N_0
  have hy0 : (y 0).val < 1 := (y 0).isLt
  have hy1 : (y 1).val < 8 := (y 1).isLt
  have hy2 : (y 2).val < 1024 := (y 2).isLt
  obtain ⟨i0, i1, i2⟩ := idx_facts0 t
  unfold ablk iblk
  rw [View.read_apply]
  show V m c main_v2 _ = _
  rw [v2_eq]
  refine reshape2_apply _ _ _ _ (row_lt _ _ hN hy1) (col_lt _ _ hy2) ?_ ?_
  · have e0 : ((((cfg0.win 0).blk t).view.emb y) 0).val = win0_0.index t 0 * 1 + 1 * (y 0).val := rfl
    have e1 : ((((cfg0.win 0).blk t).view.emb y) 1).val = win0_0.index t 1 * 8 + 1 * (y 1).val := rfl
    rw [e0, e1, i0, i1]
    exact row_arith _ _ _ hy0
  · have e2 : ((((cfg0.win 0).blk t).view.emb y) 2).val = win0_0.index t 2 * 1024 + 1 * (y 2).val := rfl
    rw [e2, i2]
    exact col_arith _ _

/-- The same at explicit coordinates. -/
theorem ablk_apply (c : Dev nD) (t : Fin cfg0.N) (r : Fin 8) (k : Fin 1024) :
    ablk m c t (ix3 (0 : Fin 1) r k) = imgAt (m ((c.tc : Thread nD τ).loc main_arg0)) (rowOf t.val r.val) (colOf t.val k.val) :=
  ablk_at m c t (ix3 (0 : Fin 1) r k)

/-- The second input window's array is the second reshaped image. -/
theorem harr1 : Pipeline.arrRef spec0 (1 : Fin 3) = main_v3 := rfl

/-- The region-entry contents read at equal references are equal (heterogeneously: the buffer's type follows the reference). -/
theorem V_heq (c : Dev nD) : ∀ b : Ref sig .tc, b = main_v3 → HEq (V m c b) (V m c main_v3) := by
  rintro _ rfl
  exact HEq.rfl

theorem V1_eq (c : Dev nD) : (V m c (Pipeline.arrRef spec0 1) : S2x2048x4096.Idx → BitVec 32) = V m c main_v3 :=
  eq_of_heq (V_heq m c _ harr1)

/-- Entry y of the second image's block at point `t` is the image at row `rowOf t (y 1)`, column `colOf t (y 2)`. -/
theorem bblk_at (c : Dev nD) (t : Fin cfg0.N) (y : S1x8x1024.Idx) :
    bblk m c t y = imgAt (m ((c.tc : Thread nD τ).loc main_arg1)) (rowOf t.val (y 1).val) (colOf t.val (y 2).val) := by
  have hN : t.val < 2048 := lt_of_lt_of_eq t.isLt N_0
  have hy0 : (y 0).val < 1 := (y 0).isLt
  have hy1 : (y 1).val < 8 := (y 1).isLt
  have hy2 : (y 2).val < 1024 := (y 2).isLt
  obtain ⟨i0, i1, i2⟩ := idx_facts1 t
  unfold bblk iblk
  rw [View.read_apply]
  refine (cast_eq _ _).trans ?_
  refine (congrFun (V1_eq m c) _).trans ?_
  rw [v3_eq]
  refine reshape2_apply _ _ _ _ (row_lt _ _ hN hy1) (col_lt _ _ hy2) ?_ ?_
  · have e0 : ((((cfg0.win 1).blk t).view.emb y) 0).val = win0_1.index t 0 * 1 + 1 * (y 0).val := rfl
    have e1 : ((((cfg0.win 1).blk t).view.emb y) 1).val = win0_1.index t 1 * 8 + 1 * (y 1).val := rfl
    rw [e0, e1, i0, i1]
    exact row_arith _ _ _ hy0
  · have e2 : ((((cfg0.win 1).blk t).view.emb y) 2).val = win0_1.index t 2 * 1024 + 1 * (y 2).val := rfl
    rw [e2, i2]
    exact col_arith _ _

/-- The same at explicit coordinates. -/
theorem bblk_apply (c : Dev nD) (t : Fin cfg0.N) (r : Fin 8) (k : Fin 1024) :
    bblk m c t (ix3 (0 : Fin 1) r k) = imgAt (m ((c.tc : Thread nD τ).loc main_arg1)) (rowOf t.val r.val) (colOf t.val k.val) :=
  bblk_at m c t (ix3 (0 : Fin 1) r k)

end Cert.KernelIdeal.HistValue

end
-- ==== Proof.KernelFinal.lean ====
/-
  The region's output array after the run.

  The output window's block index is (c, 0, 0) with c the chunk of the point, so all 1024 points of a chunk work on
  one 256 × 256 block, which is written back once, after the chunk's last point (t = c·1024 + 1023). The array
  therefore ends holding, in chunk c, what that last point left in the block.
-/
import proofs.«425698_j21998822490468_1_alg».proof.Proof.Gen.KernelIdeal.Frame
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.HistValue

open Cert.KernelIdeal Cert.KernelIdeal.Gen Idealize.ShloMosaic.ValueIdx

variable {F : FTy → Type} [FloatOps F]

variable (m : (ℓ : Loc nD τ sig) → Buf (Elt F) ℓ)

/-- The block contents after point `n` do not depend on how `n` is written. -/
theorem outsAt0_congr (c : Dev nD) {n n' : ℕ} (e : n = n') (h : n < cfg0.N) (h' : n' < cfg0.N) :
    outsAt0 m c n h = outsAt0 m c n' h' := by subst e; rfl

/-- The output window's block index at point `t`: the chunk, and zero on the table's two axes. -/
theorem idx_facts2 : ∀ t : Fin cfg0.N, win0_2.index t 0 = t.val / 1024 ∧ win0_2.index t 1 = 0 ∧ win0_2.index t 2 = 0 :=
  (by decide +kernel : ∀ t : Fin grid0.N, win0_2.index t 0 = t.val / 1024 ∧ win0_2.index t 1 = 0 ∧ win0_2.index t 2 = 0)

theorem last_lt (q : ℕ) (hq : q < 2) : q * 1024 + 1023 < cfg0.N := by
  rw [show cfg0.N = 2048 from N_0]; omega

/-- Chunk by chunk, what the chunk's last point leaves in the block. -/
def chunkTab (c : Dev nD) : FVec F S2x256x256 .f32 := fun q =>
  outsAt0 m c ((q 0).val * 1024 + 1023) (last_lt _ (q 0).isLt) (ix3 (0 : Fin 1) (q 1) (q 2))

/-- What a writing-back point writes back is its block of `chunkTab`. -/
theorem flushed_eq (c : Dev nD) (t : Fin cfg0.N) (hf : (cfg0.win 2).flush t = true) :
    (dats m 0 c).flushed 2 t = ((cfg0.win 2).blk t).view.read (Elt F) (chunkTab m c) := by
  have hN : t.val < 2048 := lt_of_lt_of_eq t.isLt N_0
  have hl : t.val % 1024 = 1023 := (flush0_2 t).mp hf
  obtain ⟨i0, i1, i2⟩ := idx_facts2 t
  show (cfg0.win 2).cut (grid0.coords t) ((dats m 0 c).after 2 t) = _
  rw [after0_2]
  funext j
  rw [View.read_apply]
  symm
  have hj0 : (j 0).val < 1 := (j 0).isLt
  have e0 : ((((cfg0.win 2).blk t).view.emb j) 0).val = t.val / 1024 := by
    show win0_2.index t 0 * 1 + 1 * (j 0).val = _
    rw [i0]; omega
  unfold chunkTab
  refine (congrFun (outsAt0_congr m c (by rw [e0]; omega) _ t.isLt) _).trans (congrArg _ ?_)
  funext a
  apply Fin.ext
  match a with
  | ⟨0, _⟩ => show 0 = (j 0).val; omega
  | ⟨1, _⟩ => show win0_2.index t 1 * 256 + 1 * (j 1).val = (j 1).val; rw [i1]; omega
  | ⟨2, _⟩ => show win0_2.index t 2 * 256 + 1 * (j 2).val = (j 2).val; rw [i2]; omega

/-- So the output array ends holding `chunkTab`: the last point of chunk c covers chunk c. -/
theorem final_out (c : Dev nD) : (dats m 0 c).arrAt 2 cfg0.N = chunkTab m c :=
  (dats m 0 c).arrAt_eq_of_cover 2 (chunkTab m c) (flushed_eq m c) fun i => by
    have h0 : (i 0 : Nat) < 2 := (i 0).isLt
    have h1 : (i 1 : Nat) < 256 := (i 1).isLt
    have h2 : (i 2 : Nat) < 256 := (i 2).isLt
    let t : Fin cfg0.N := ⟨(i 0).val * 1024 + 1023, last_lt _ h0⟩
    obtain ⟨i0, i1, i2⟩ := idx_facts2 t
    have ht : t.val = (i 0).val * 1024 + 1023 := rfl
    refine ⟨t, (flush0_2 t).mpr (by rw [ht]; omega), ?_⟩
    show i ∈ ((View.whole main_v4).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [i0, ht]; omega
    | ⟨1, _⟩ => show win0_2.index t 1 * 256 ≤ (i 1 : Nat) ∧ (i 1 : Nat) < win0_2.index t 1 * 256 + 256
                rw [i1]; omega
    | ⟨2, _⟩ => show win0_2.index t 2 * 256 ≤ (i 2 : Nat) ∧ (i 2 : Nat) < win0_2.index t 2 * 256 + 256
                rw [i2]; omega

end Cert.KernelIdeal.HistValue

end
-- ==== Proof.KernelAcc.lean ====
/-
  The kernel's joint table.

  At every point the body adds the point's partial table P_t(i, j) = Σ_{r<8} Σ_{k<1024} [A = i]·[B = j] over the
  point's 8 × 1024 block of pixels into the output block, restarting from zero at the first point of each chunk. So
  after point n the block holds the running sum of the partial tables since the chunk began (`acc_eq`, by induction
  on the point), after the chunk's last point the whole chunk's sum, and the sum of the two chunk tables — which
  the program forms after the region — is the sum of [A p = i]·[B p = j] over every pixel p: the 2048 blocks tile the
  4096 × 4096 image (`kjoint_eq`). Sums of extended reals may be regrouped freely; nothing here needs the labels to
  be in range.
-/
import proofs.«425698_j21998822490468_1_alg».proof.Proof.Gen.KernelIdeal.Frame
import proofs.«425698_j21998822490468_1_alg».proof.Proof.Spec
import proofs.«425698_j21998822490468_1_alg».proof.Proof.Sums
import proofs.«425698_j21998822490468_1_alg».proof.Proof.PayloadAt
import proofs.«425698_j21998822490468_1_alg».proof.Proof.KernelCases
import proofs.«425698_j21998822490468_1_alg».proof.Proof.KernelBlocks
import proofs.«425698_j21998822490468_1_alg».proof.Proof.KernelFinal
import proofs.«425698_j21998822490468_1_alg».proof.Proof.KernelTail
import Idealize.ShloMosaic.Lib.ValueIdx
import Idealize.ShloMosaic.PureOps.Ideal.Laws
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.HistValue

open Cert.KernelIdeal Cert.KernelIdeal.Gen Idealize.ShloMosaic.ValueIdx
open Cert.Hist (onehot joint runSum runSum_restart runSum_step runSum_chunk_end sum_points sum_img pay2_apply pay1_apply)

variable {F : FTy → Type} [FloatOps F]

variable (m : (ℓ : Loc nD τ sig) → Buf (Elt Ideal) ℓ)

/-- The partial table of point `n` at the bins (i, j), over two images read by row and column. -/
def pointTab (A B : IVec S1x1x4096x4096 32) (i j : ℕ) (n : ℕ) : EReal :=
  ∑ r : Fin 8, ∑ k : Fin 1024,
    onehot (imgAt A (rowOf n r.val) (colOf n k.val)) i * onehot (imgAt B (rowOf n r.val) (colOf n k.val)) j

/-- The first image as launched. -/
abbrev imgA (c : Dev nD) : IVec S1x1x4096x4096 32 := m ((c.tc : Thread nD τ).loc main_arg0)
/-- The second image as launched. -/
abbrev imgB (c : Dev nD) : IVec S1x1x4096x4096 32 := m ((c.tc : Thread nD τ).loc main_arg1)

/-- The body's sum over the point's block is the point's partial table. -/
theorem block_sum (c : Dev nD) (t : Fin cfg0.N) (i j : Fin 256) :
    (∑ r : Fin 8, ∑ k : Fin 1024, onehot (ablk m c t (ix3 (0 : Fin 1) r k)) i.val * onehot (bblk m c t (ix3 (0 : Fin 1) r k)) j.val)
      = pointTab (imgA m c) (imgB m c) i.val j.val t.val := by
  unfold pointTab
  refine Finset.sum_congr rfl fun r _ => Finset.sum_congr rfl fun k _ => ?_
  rw [ablk_apply, bblk_apply]

/-- After point `n` the output block holds, at (i, j), the running sum of the partial tables since the chunk began. -/
theorem acc_eq (c : Dev nD) (i j : Fin 256) : ∀ (n : ℕ) (h : n < cfg0.N),
    outsAt0 m c n h (ix3 (0 : Fin 1) i j) = runSum (pointTab (imgA m c) (imgB m c) i.val j.val) n
  | 0, h => by
    rw [outsAt0_A m c ⟨0, h⟩ rfl, out_A]
    refine (pay2_apply (ablk m c ⟨0, h⟩) (bblk m c ⟨0, h⟩) _ i j).trans ?_
    rw [pay1_apply, zero_add, block_sum, runSum_restart _ 0 rfl]
  | n + 1, h => by
    by_cases h0 : (n + 1) % 1024 = 0
    · rw [outsAt0_A m c ⟨n + 1, h⟩ h0, out_A]
      refine (pay2_apply (ablk m c ⟨n + 1, h⟩) (bblk m c ⟨n + 1, h⟩) _ i j).trans ?_
      rw [pay1_apply, zero_add, block_sum, runSum_restart _ (n + 1) h0]
    · rw [outsAt0_B m c ⟨n + 1, h⟩ h0, out_B]
      refine (pay2_apply (ablk m c ⟨n + 1, h⟩) (bblk m c ⟨n + 1, h⟩) _ i j).trans ?_
      rw [block_sum, runSum_step _ n h0]
      show outsAt0 m c n _ (ix3 (0 : Fin 1) i j) + _ = _
      rw [acc_eq c i j n]

/-- The sum of the two chunk tables, as the program forms it after the region, is the joint histogram of the two images. -/
theorem kjoint_eq (c : Dev nD) :
    Host.reduceAdd (F := Ideal) (outArr m c) (constant S_ .f32 0x00000000#32) reducesTo_S2x256x256_S256x256_d0 h_S_
      = joint (imgA m c) (imgB m c) := by
  funext q
  obtain ⟨i, j, rfl⟩ : ∃ (i j : Fin 256), q = ix2 i j := ⟨q 0, q 1, eq_ix2 q⟩
  have hR : S2x256x256.Reduces [0] S256x256 := by decide
  show Ideal.hostReduceAdd reducesTo_S2x256x256_S256x256_d0 (outArr m c) (Ideal.ofBits .f32 0x00000000#32) (ix2 i j) = _
  rw [Ideal.hostReduceAdd_single reducesTo_S2x256x256_S256x256_d0 hR, Ideal.ofBits_zero_f32, zero_add]
  -- the reduced index (i, j) with chunk cc put back on the leading axis is (cc, i, j)
  have hl : ∀ cc : Fin 2, hR.lift (ix2 i j) cc = ix3 cc i j := fun cc => funext fun a => Fin.ext (by
    match a with
    | ⟨0, _⟩ => rfl
    | ⟨1, _⟩ => rfl
    | ⟨2, _⟩ => rfl)
  have hout : ∀ cc : Fin 2, outArr m c (ix3 cc i j) = ∑ n : Fin 1024, pointTab (imgA m c) (imgB m c) i.val j.val (cc.val * 1024 + n.val) := by
    intro cc
    show (dats m 0 c).arrAt 2 cfg0.N (ix3 cc i j) = _
    rw [final_out]
    show outsAt0 m c (cc.val * 1024 + 1023) _ (ix3 (0 : Fin 1) i j) = _
    rw [acc_eq, runSum_chunk_end]
  refine (Finset.sum_congr rfl fun cc _ => (congrArg (outArr m c) (hl cc)).trans (hout cc)).trans ?_
  unfold pointTab rowOf colOf
  refine (sum_points (fun a b => onehot (imgAt (imgA m c) a b) i.val * onehot (imgAt (imgB m c) a b) j.val)).trans ?_
  unfold joint
  rw [sum_img]
  refine Finset.sum_congr rfl fun a _ => Finset.sum_congr rfl fun b _ => ?_
  unfold imgAt
  rw [dif_pos ⟨a.isLt, b.isLt⟩, dif_pos ⟨a.isLt, b.isLt⟩]

end Cert.KernelIdeal.HistValue

end
-- ==== Proof.lean ====
/-
  The certificate: a joint-histogram kernel against its scatter-add reference.

  Both programs compute the mutual information of the joint histogram of two 4096 × 4096 label images. The kernel
  builds the 256 × 256 table by multiplying one-hot rows block by block over a grid of 2048 points and summing two
  chunk tables; the reference scatter-adds a one per pixel at the flat index A p · 256 + B p and reshapes. Both then
  apply one and the same function `mi` to the table. The kernel's table is the count of pixels with A p = i and
  B p = j for any labels (`kjoint_eq`); the reference's is that count when every label lies in [0, 256), which is
  what the precondition says (`range_of_pre`, `rjoint_eq`). So the two results are `mi` of one table.

  The three frames are the generated frame runs (the reference's being its run with the result dropped); the ideal
  pass rewrote nothing, so `preserves` is trivial.
-/
import proofs.«425698_j21998822490468_1_alg».proof.Defs
import proofs.«425698_j21998822490468_1_alg».proof.Proof.Gen.Kernel
import proofs.«425698_j21998822490468_1_alg».proof.Proof.Gen.Kernel.Skeleton
import proofs.«425698_j21998822490468_1_alg».proof.Proof.Gen.Kernel.Launch
import proofs.«425698_j21998822490468_1_alg».proof.Proof.Gen.Kernel.Points
import proofs.«425698_j21998822490468_1_alg».proof.Proof.Gen.Kernel.Frame
import proofs.«425698_j21998822490468_1_alg».proof.Proof.Gen.KernelIdeal
import proofs.«425698_j21998822490468_1_alg».proof.Proof.Gen.KernelIdeal.Skeleton
import proofs.«425698_j21998822490468_1_alg».proof.Proof.Gen.KernelIdeal.Launch
import proofs.«425698_j21998822490468_1_alg».proof.Proof.Gen.KernelIdeal.Points
import proofs.«425698_j21998822490468_1_alg».proof.Proof.Gen.KernelIdeal.Frame
import proofs.«425698_j21998822490468_1_alg».proof.Proof.Gen.ReferenceIdeal
import proofs.«425698_j21998822490468_1_alg».proof.Proof.Gen.Pre_any_inputs
import proofs.«425698_j21998822490468_1_alg».proof.Proof.RefRun
import proofs.«425698_j21998822490468_1_alg».proof.Proof.RefValue
import proofs.«425698_j21998822490468_1_alg».proof.Proof.ScatterCount
import proofs.«425698_j21998822490468_1_alg».proof.Proof.PreRange
import proofs.«425698_j21998822490468_1_alg».proof.Proof.KernelTail
import proofs.«425698_j21998822490468_1_alg».proof.Proof.KernelAcc
import Idealize.ShloMosaic.Adequacy
import Idealize.ShloMosaic.Init

noncomputable section

namespace Cert.Proof

open Idealize.ShloMosaic Idealize.ShloMosaic.TcCoe Idealize.SL.Sem

/-! ## The kernel's run, with its result named -/

section KernelRun

open Cert.KernelIdeal Cert.KernelIdeal.Gen Cert.KernelIdeal.HistValue

/-- Every weakly fair execution of the idealized kernel ends with its result at the mutual information of the joint
    histogram of the two images as launched, and the images unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36) = Cert.Hist.mi (F := Ideal) (Cert.Hist.joint (imgA m c) (imgB m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v36 (Pipeline.mem_restRefs_of main_v36 (by decide) (by decide))).trans
        ((tail_eq m c).trans (congrArg (Cert.Hist.mi (F := Ideal)) (kjoint_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end KernelRun

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Under the precondition both programs end at the mutual information of the same table of counts. -/
theorem algebraic : Cert.algebraic_KernelIdeal_ReferenceIdeal := by
  intro m ρ m' ρ' hpre hagree
  refine ⟨fun c => Cert.Hist.mi (F := Ideal) (Cert.Hist.joint (Cert.KernelIdeal.HistValue.imgA m c) (Cert.KernelIdeal.HistValue.imgB m c)),
    kernel_run m ρ, ?_⟩
  refine (θ_run Cert.ReferenceIdeal.defs _ _).mono (fun _ h c => ⟨?_, (h c).2.1, (h c).2.2⟩)
    (Cert.ReferenceIdeal.ValueP.run (F := Ideal) m' ρ')
  obtain ⟨hA, hB⟩ := Cert.Hist.range_of_pre (F := Ideal) _ _ (hpre c)
  rw [(h c).1, Cert.ReferenceIdeal.HistValue.res_eq, (hagree c).1, (hagree c).2]
  exact congrArg (Cert.Hist.mi (F := Ideal)) (Cert.Hist.rjoint_eq _ _ hA hB)

theorem claim : Cert.Claim := ⟨Cert.Kernel.Gen.facts, Cert.KernelIdeal.Gen.facts, Cert.ReferenceIdeal.Gen.facts, Cert.Pre_any_inputs.Gen.facts,
  frame_k, frame_ki, frame_ri, preserves, algebraic⟩

end Cert.Proof

end
